-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1536x1536 : Shape := ⟨3, ![16, 1536, 1536]⟩
abbrev S24576x3 : Shape := ⟨2, ![24576, 3]⟩
abbrev S24576x1 : Shape := ⟨2, ![24576, 1]⟩
abbrev S8192 : Shape := ⟨1, ![8192]⟩
abbrev S_ : Shape := ⟨0, ![]⟩

class Facts : Prop where
  bcast_S_S16x1536x1536 : S_.BroadcastsInDim S16x1536x1536 (![] : Fin 0 → Fin S16x1536x1536.rank)
  reducesTo_S16x1536x1536_S_d0_1_2 : S16x1536x1536.ReducesTo [0, 1, 2] S_
  h_S_ : 0 < S_.numel
  bcast_S_S24576x3 : S_.BroadcastsInDim S24576x3 (![] : Fin 0 → Fin S24576x3.rank)
  reducesTo_S24576x3_S_d0_1 : S24576x3.ReducesTo [0, 1] S_

variable [Facts]

def fn {F : FTy → Type} [FloatOps F] (main_arg0 : FVec F S16x1536x1536 .f32) (main_arg1 : FVec F S24576x3 .f32) (main_arg2 : IVec S24576x1 32) (main_arg3 : IVec S8192 32) : IVec S_ 1 :=
  let main_v0 : FVec F S16x1536x1536 .f32 := Host.absf main_arg0
  let main_cst : FVec F S_ .f32 := constant S_ .f32 0x7F800000#32
  let main_v1 : FVec F S16x1536x1536 .f32 := broadcastInDim S16x1536x1536 ![] bcast_S_S16x1536x1536 main_cst
  let main_v2 : IVec S16x1536x1536 1 := cmpf .olt main_v0 main_v1
  let main_c : IVec S_ 1 := constantI S_ 1 1#1
  let main_v3 : IVec S_ 1 := (fun x v => Host.reduce IntOp.andi x v reducesTo_S16x1536x1536_S_d0_1_2 h_S_) main_v2 main_c
  let main_v4 : FVec F S24576x3 .f32 := Host.absf main_arg1
  let main_cst_0 : FVec F S_ .f32 := constant S_ .f32 0x7F800000#32
  let main_v5 : FVec F S24576x3 .f32 := broadcastInDim S24576x3 ![] bcast_S_S24576x3 main_cst_0
  let main_v6 : IVec S24576x3 1 := cmpf .olt main_v4 main_v5
  let main_c_1 : IVec S_ 1 := constantI S_ 1 1#1
  let main_v7 : IVec S_ 1 := (fun x v => Host.reduce IntOp.andi x v reducesTo_S24576x3_S_d0_1 h_S_) main_v6 main_c_1
  let main_v8 : IVec S_ 1 := andi main_v3 main_v7
  main_v8
-- ==== Kernel.lean ====
abbrev S16x1536x1536 : Shape := ⟨3, ![16, 1536, 1536]⟩
abbrev S24576x3 : Shape := ⟨2, ![24576, 3]⟩
abbrev S24576x1 : Shape := ⟨2, ![24576, 1]⟩
abbrev S8192 : Shape := ⟨1, ![8192]⟩
abbrev S16x1536x3 : Shape := ⟨3, ![16, 1536, 3]⟩
abbrev S16x1536x1 : Shape := ⟨3, ![16, 1536, 1]⟩
abbrev S1x1 : Shape := ⟨2, ![1, 1]⟩
abbrev S1x256x1536 : Shape := ⟨3, ![1, 256, 1536]⟩
abbrev S1x256x3 : Shape := ⟨3, ![1, 256, 3]⟩
abbrev S1x1536x3 : Shape := ⟨3, ![1, 1536, 3]⟩
abbrev S1x256x1 : Shape := ⟨3, ![1, 256, 1]⟩
abbrev S1x1536x1 : Shape := ⟨3, ![1, 1536, 1]⟩
abbrev S256x3 : Shape := ⟨2, ![256, 3]⟩
abbrev S1536x3 : Shape := ⟨2, ![1536, 3]⟩
abbrev S256x1 : Shape := ⟨2, ![256, 1]⟩
abbrev S1536x1 : Shape := ⟨2, ![1536, 1]⟩
abbrev S3x1536 : Shape := ⟨2, ![3, 1536]⟩
abbrev S1x1536 : Shape := ⟨2, ![1, 1536]⟩
abbrev S256 : Shape := ⟨1, ![256]⟩
abbrev S1536 : Shape := ⟨1, ![1536]⟩
abbrev S256x1536 : Shape := ⟨2, ![256, 1536]⟩
abbrev S1 : Shape := ⟨1, ![1]⟩
abbrev S_ : Shape := ⟨0, ![]⟩

abbrev nBuf : Space → Nat
  | .hbm => 15
  | .vmem => 14
  | .smem => 0
  | _ => 0

abbrev bufTy : (tb : Table) → Fin (tcTables nBuf tb) → BufTy
  | .hbm, ⟨0, _⟩ => ⟨S16x1536x1536, .f32⟩
  | .hbm, ⟨1, _⟩ => ⟨S24576x3, .f32⟩
  | .hbm, ⟨2, _⟩ => ⟨S24576x1, .i32⟩
  | .hbm, ⟨3, _⟩ => ⟨S8192, .i32⟩
  | .hbm, ⟨4, _⟩ => ⟨S16x1536x3, .f32⟩
  | .hbm, ⟨5, _⟩ => ⟨S16x1536x1, .i32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x256x1536, .f32⟩
  | .local _ .vmem, ⟨1, _⟩ => ⟨S1x256x1536, .f32⟩
  | .local _ .vmem, ⟨2, _⟩ => ⟨S1x256x3, .f32⟩
  | .local _ .vmem, ⟨3, _⟩ => ⟨S1x256x3, .f32⟩
  | .local _ .vmem, ⟨4, _⟩ => ⟨S1x1536x3, .f32⟩
  | .local _ .vmem, ⟨5, _⟩ => ⟨S1x1536x3, .f32⟩
  | .local _ .vmem, ⟨6, _⟩ => ⟨S1x256x1, .i32⟩
  | .local _ .vmem, ⟨7, _⟩ => ⟨S1x256x1, .i32⟩
  | .local _ .vmem, ⟨8, _⟩ => ⟨S1x1536x1, .i32⟩
  | .local _ .vmem, ⟨9, _⟩ => ⟨S1x1536x1, .i32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | _, _ => ⟨S16x1536x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg0 : BitVec 32 := BitVec.ofNat 32 (i 0).val
  let c15_i32 : BitVec 32 := 15#32
  let v82 : BitVec 1 := Scalar.cmpi .eq arg0 c15_i32
  let arg1 : BitVec 32 := BitVec.ofNat 32 (i 1).val
  let c5_i32 : BitVec 32 := 5#32
  let v83 : BitVec 1 := Scalar.cmpi .eq arg1 c5_i32
  let v84 : BitVec 1 := Scalar.andi v82 v83
  let v85 : BitVec 32 := Scalar.extui v84
  let c0_i32_34 : BitVec 32 := 0#32
  let v86 : BitVec 1 := Scalar.cmpi .ne v85 c0_i32_34
  v86

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1536x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  shapeCasts_S24576x3_S16x1536x3 : S24576x3.ShapeCasts S16x1536x3
  shapeCasts_S24576x1_S16x1536x1 : S24576x1.ShapeCasts S16x1536x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x1536x3_S1x1536x3_0_0_0 : ∀ a, (![0, 0, 0] : Fin 3 → Nat) a + S1x1536x3.size a ≤ S1x1536x3.size a
  h_S1x1536x3 : 0 < S1x1536x3.numel
  shapeCasts_S1x1536x3_S1536x3 : S1x1536x3.ShapeCasts S1536x3
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1536x1_S1x1536x1_0_0_0 : ∀ a, (![0, 0, 0] : Fin 3 → Nat) a + S1x1536x1.size a ≤ S1x1536x1.size a
  h_S1x1536x1 : 0 < S1x1536x1.numel
  shapeCasts_S1x1536x1_S1536x1 : S1x1536x1.ShapeCasts S1536x1
  transposes_S1536x3_p1_0_S3x1536 : S1536x3.Transposes [1, 0] S3x1536
  transposes_S1536x1_p1_0_S1x1536 : S1536x1.Transposes [1, 0] S1x1536
  reduces_S256x3_S256 : S256x3.Reduces [1] S256
  shapeCasts_S256_S256x1 : S256.ShapeCasts S256x1
  reduces_S3x1536_S1536 : S3x1536.Reduces [0] S1536
  shapeCasts_S1536_S1x1536 : S1536.ShapeCasts S1x1536
  slices_S256x3_o0_0_S256x1 : S256x3.Slices ![0, 0] S256x1
  slices_S3x1536_o0_0_S1x1536 : S3x1536.Slices ![0, 0] S1x1536
  broadcasts_S256x1_S256x1536 : S256x1.Broadcasts S256x1536
  broadcasts_S1x1536_S256x1536 : S1x1536.Broadcasts S256x1536
  slices_S256x3_o0_1_S256x1 : S256x3.Slices ![0, 1] S256x1
  slices_S3x1536_o1_0_S1x1536 : S3x1536.Slices ![1, 0] S1x1536
  slices_S256x3_o0_2_S256x1 : S256x3.Slices ![0, 2] S256x1
  slices_S3x1536_o2_0_S1x1536 : S3x1536.Slices ![2, 0] S1x1536
  inb_S1x256x1536_S1x256x1536_0_0_0 : ∀ a, (![0, 0, 0] : Fin 3 → Nat) a + S1x256x1536.size a ≤ S1x256x1536.size a
  h_S1x256x1536 : 0 < S1x256x1536.numel
  shapeCasts_S1x256x1536_S256x1536 : S1x256x1536.ShapeCasts S256x1536
  reduces_S256x1536_S256 : S256x1536.Reduces [1] S256
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1536.size a ≤ S16x1536x1536.size a
  hwx0_0 : ∀ i : grid0.Coords, EltTy.bits .f32 = 32 ∨ (Rect.block (s := S16x1536x1536) S1x256x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S16x1536x3.size a
  hwx0_1 : ∀ i : grid0.Coords, EltTy.bits .f32 = 32 ∨ (Rect.block (s := S16x1536x3) S1x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1536x3.size a ≤ S16x1536x3.size a
  hwx0_2 : ∀ i : grid0.Coords, EltTy.bits .f32 = 32 ∨ (Rect.block (s := S16x1536x3) S1x1536x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S16x1536x1.size a
  hwx0_3 : ∀ i : grid0.Coords, EltTy.bits .i32 = 32 ∨ (Rect.block (s := S16x1536x1) S1x256x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1536x1.size a ≤ S16x1536x1.size a
  hwx0_4 : ∀ i : grid0.Coords, EltTy.bits .i32 = 32 ∨ (Rect.block (s := S16x1536x1) S1x1536x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_arg0) S1x256x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1536x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1536x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x1536x1536 : Shape := ⟨3, ![16, 1536, 1536]⟩
abbrev S24576x3 : Shape := ⟨2, ![24576, 3]⟩
abbrev S24576x1 : Shape := ⟨2, ![24576, 1]⟩
abbrev S8192 : Shape := ⟨1, ![8192]⟩
abbrev S16x1536x3 : Shape := ⟨3, ![16, 1536, 3]⟩
abbrev S16x1536 : Shape := ⟨2, ![16, 1536]⟩
abbrev S16x1536x1 : Shape := ⟨3, ![16, 1536, 1]⟩
abbrev S16x1x1536 : Shape := ⟨3, ![16, 1, 1536]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S16x1536x1536, .f32⟩
  | .hbm, ⟨1, _⟩ => ⟨S24576x3, .f32⟩
  | .hbm, ⟨2, _⟩ => ⟨S24576x1, .i32⟩
  | .hbm, ⟨3, _⟩ => ⟨S8192, .i32⟩
  | .hbm, ⟨4, _⟩ => ⟨S16x1536x3, .f32⟩
  | .hbm, ⟨5, _⟩ => ⟨S16x1536, .i32⟩
  | .hbm, ⟨6, _⟩ => ⟨S16x1536, .f32⟩
  | .hbm, ⟨7, _⟩ => ⟨S16x1536x1, .f32⟩
  | .hbm, ⟨8, _⟩ => ⟨S16x1x1536, .f32⟩
  | .hbm, ⟨9, _⟩ => ⟨S16x1536x1536, .f32⟩
  | .hbm, ⟨10, _⟩ => ⟨S16x1536x1536, .f32⟩
  | .hbm, ⟨11, _⟩ => ⟨S16x1536x1536, .f32⟩
  | .hbm, ⟨12, _⟩ => ⟨S16x1536x3, .f32⟩
  | .hbm, ⟨13, _⟩ => ⟨S_, .f32⟩
  | .hbm, ⟨14, _⟩ => ⟨S16x1536, .f32⟩
  | .hbm, ⟨15, _⟩ => ⟨S16x1536x1536, .f32⟩
  | .hbm, ⟨16, _⟩ => ⟨S16x1536x1, .f32⟩
  | .hbm, ⟨17, _⟩ => ⟨S16x1x1536, .f32⟩
  | .hbm, ⟨18, _⟩ => ⟨S16x1536x1536, .f32⟩
  | .hbm, ⟨19, _⟩ => ⟨S16x1536x1536, .f32⟩
  | .hbm, ⟨20, _⟩ => ⟨S16x1536x1536, .f32⟩
  | .hbm, ⟨21, _⟩ => ⟨S_, .f32⟩
  | .hbm, ⟨22, _⟩ => ⟨S16x1536x1536, .f32⟩
  | .hbm, ⟨23, _⟩ => ⟨S16x1536x1536, .f32⟩
  | .hbm, ⟨24, _⟩ => ⟨S16x1536x1536, .f32⟩
  | .hbm, ⟨25, _⟩ => ⟨S_, .f32⟩
  | .hbm, ⟨26, _⟩ => ⟨S16x1536x1536, .f32⟩
  | .hbm, ⟨27, _⟩ => ⟨S16x1536x1536, .f32⟩
  | .hbm, ⟨28, _⟩ => ⟨S_, .f32⟩
  | .hbm, ⟨29, _⟩ => ⟨S16x1536x1536, .f32⟩
  | .hbm, ⟨30, _⟩ => ⟨S16x1536x1536, .i1⟩
  | .hbm, ⟨31, _⟩ => ⟨S_, .f32⟩
  | .hbm, ⟨32, _⟩ => ⟨S_, .f32⟩
  | .hbm, ⟨33, _⟩ => ⟨S16x1536x1536, .f32⟩
  | .hbm, ⟨34, _⟩ => ⟨S16x1536x1536, .f32⟩
  | .hbm, ⟨35, _⟩ => ⟨S_, .f32⟩
  | .hbm, ⟨36, _⟩ => ⟨S16x1536x1536, .f32⟩
  | .hbm, ⟨37, _⟩ => ⟨S16x1536x1536, .i1⟩
  | .hbm, ⟨38, _⟩ => ⟨S16x1536x1536, .f32⟩
  | .hbm, ⟨39, _⟩ => ⟨S_, .f32⟩
  | .hbm, ⟨40, _⟩ => ⟨S_, .f32⟩
  | .hbm, ⟨41, _⟩ => ⟨S16x1536x1536, .f32⟩
  | .hbm, ⟨42, _⟩ => ⟨S16x1536x1536, .f32⟩
  | .hbm, ⟨43, _⟩ => ⟨S16x1536x1536, .f32⟩
  | .hbm, ⟨44, _⟩ => ⟨S16x1536x1536, .f32⟩
  | .hbm, ⟨45, _⟩ => ⟨S16x1536x1536, .f32⟩
  | .hbm, ⟨46, _⟩ => ⟨S16x1536x1536, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S16x1536x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  shapeCasts_S24576x3_S16x1536x3 : S24576x3.ShapeCasts S16x1536x3
  shapeCasts_S24576x1_S16x1536 : S24576x1.ShapeCasts S16x1536
  bcast_S16x1536_S16x1536x1_0_1 : S16x1536.BroadcastsInDim S16x1536x1 (![0, 1] : Fin 2 → Fin S16x1536x1.rank)
  bcast_S16x1536_S16x1x1536_0_2 : S16x1536.BroadcastsInDim S16x1x1536 (![0, 2] : Fin 2 → Fin S16x1x1536.rank)
  bcast_S16x1536x1_S16x1536x1536_0_1_2 : S16x1536x1.BroadcastsInDim S16x1536x1536 (![0, 1, 2] : Fin 3 → Fin S16x1536x1536.rank)
  bcast_S16x1x1536_S16x1536x1536_0_1_2 : S16x1x1536.BroadcastsInDim S16x1536x1536 (![0, 1, 2] : Fin 3 → Fin S16x1536x1536.rank)
  reducesTo_S16x1536x3_S16x1536_d2 : S16x1536x3.ReducesTo [2] S16x1536
  h_S_ : 0 < S_.numel
  bcast_S_S16x1536x1536 : S_.BroadcastsInDim S16x1536x1536 (![] : Fin 0 → Fin S16x1536x1536.rank)
  reducesTo_S16x1536x1536_S_d0_1_2 : S16x1536x1536.ReducesTo [0, 1, 2] S_
  dot_S16x1536x3_S16x1536x3_S16x1536x1536_2_2_1_1_0_0_wf : DotDims.WF S16x1536x3 S16x1536x3 S16x1536x1536 [2] [2] [1] [1] [0] [0]

variable [Facts₀]

def dot_S16x1536x3_S16x1536x3_S16x1536x1536_2_2_1_1_0_0 : DotDims S16x1536x3 S16x1536x3 S16x1536x1536 where
  lhsContracting := [2]
  rhsContracting := [2]
  lhsNonContracting := [1]
  rhsNonContracting := [1]
  lhsBatch := [0]
  rhsBatch := [0]
  wf := dot_S16x1536x3_S16x1536x3_S16x1536x1536_2_2_1_1_0_0_wf

class Facts : Prop extends Facts₀ where

variable [Facts]
-- ==== Proof.KIFrame0.lean ====
/-
  The setting of the kernel's frame and value proofs: the buffer contents the one region is entered with (the two
  reshapes of the coordinates and of the mask done), @main as "host lines, region, host lines", each window's block
  at a grid point, the two branch conditions of the body in closed form over the 96 points (the first point resets
  the two running sums, the last point copies them out), where the two output windows are idle, and the staging and
  scratch memrefs the body is called with.
-/
import proofs.«165863_j34926674051539_1_alg».proof.Proof.Gen.KernelIdeal.Launch
import proofs.«165863_j34926674051539_1_alg».proof.Proof.Gen.KernelIdeal.Skeleton
import proofs.«165863_j34926674051539_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes, the region, then the seven scalar lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes write none of the four arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions, over the grid -/

/-- "This is the first point" as the body computes it from the two coordinates. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point" as the body computes it. -/
abbrev cond0_1 (i : grid0.Coords) : Prop := k0_cond2 i = 1#1
theorem hcond0_1 : ∀ t : Fin cfg0.N, cond0_1 (grid0.coords t) ↔ t.val = 95 :=
  (by decide +kernel : ∀ t : Fin grid0.N, cond0_1 (grid0.coords t) ↔ t.val = 95)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the two outputs are idle and not written back; at the last point they are live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1x256x1536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1536x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
/-- The two running sums live in scratch buffers of the kernel's own. -/
abbrev scM0_0 : Memref sig .tc .vmem S1x1 .f32 := Memref.whole cc0_scratch0
abbrev scM0_1 : Memref sig .tc .vmem S1x1 .f32 := Memref.whole cc0_scratch1

/-- The region's class invariant: the two scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KIAcc.lean ====
/-
  The two running sums as pure functions. One grid point adds its tile's sum of loss terms to the first scratch cell
  and its tile's sum of pair masks to the second; the first point starts both from the zero pattern. `accAt n` is the
  pair of cells after point `n`, by recursion on the point; `resultOf` is what the seven scalar lines after the region
  compute from the two cells: each divided by the count, then multiplied.
-/
import proofs.«165863_j34926674051539_1_alg».proof.Proof.KIFrame0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks at a point, each at its literal type. -/
abbrev xb0 (c : Dev nD) (t : Fin cfg0.N) : Vec F S1x256x1536 .f32 := iblk m c 0 t
abbrev xb1 (c : Dev nD) (t : Fin cfg0.N) : Vec F S1x256x3 .f32 := iblk m c 1 t
abbrev xb2 (c : Dev nD) (t : Fin cfg0.N) : Vec F S1x1536x3 .f32 := iblk m c 2 t
abbrev xb3 (c : Dev nD) (t : Fin cfg0.N) : Vec F S1x256x1 .i32 := iblk m c 3 t
abbrev xb4 (c : Dev nD) (t : Fin cfg0.N) : Vec F S1x1536x1 .i32 := iblk m c 4 t

/-- The first cell after a point: the old cell plus the tile's sum of loss terms. -/
def sqStep (x0 : Vec F S1x256x1536 .f32) (x1 : Vec F S1x256x3 .f32) (x2 : Vec F S1x1536x3 .f32) (x3 : Vec F S1x256x1 .i32)
    (x4 : Vec F S1x1536x1 .i32) (a : Vec F S1x1 .f32) : Vec F S1x1 .f32 :=
  k0_pay12 (k0_pay5 x3) (k0_pay7 x4) (k0_pay8 x1) (k0_pay9 x2) (k0_pay10 x1 x2) x0 a

/-- The second cell after a point: the old cell plus the tile's sum of pair masks. -/
def pmStep (x3 : Vec F S1x256x1 .i32) (x4 : Vec F S1x1536x1 .i32) (a : Vec F S1x1 .f32) : Vec F S1x1 .f32 :=
  k0_pay1 (k0_pay13 (k0_pay5 x3) (k0_pay7 x4) a)

/-- The two cells after point `n`. -/
def accAt (c : Dev nD) : (n : ℕ) → n < cfg0.N → Vec F S1x1 .f32 × Vec F S1x1 .f32
  | 0, hn => (sqStep (xb0 m c ⟨0, hn⟩) (xb1 m c ⟨0, hn⟩) (xb2 m c ⟨0, hn⟩) (xb3 m c ⟨0, hn⟩) (xb4 m c ⟨0, hn⟩) (k0_pay2 (F := F)),
      pmStep (xb3 m c ⟨0, hn⟩) (xb4 m c ⟨0, hn⟩) (k0_pay3 (F := F)))
  | n + 1, hn => (sqStep (xb0 m c ⟨n + 1, hn⟩) (xb1 m c ⟨n + 1, hn⟩) (xb2 m c ⟨n + 1, hn⟩) (xb3 m c ⟨n + 1, hn⟩) (xb4 m c ⟨n + 1, hn⟩)
        (accAt c n (Nat.lt_of_succ_lt hn)).1,
      pmStep (xb3 m c ⟨n + 1, hn⟩) (xb4 m c ⟨n + 1, hn⟩) (accAt c n (Nat.lt_of_succ_lt hn)).2)

theorem accAt_zero (c : Dev nD) (hn : 0 < cfg0.N) :
    accAt m c 0 hn = (sqStep (xb0 m c ⟨0, hn⟩) (xb1 m c ⟨0, hn⟩) (xb2 m c ⟨0, hn⟩) (xb3 m c ⟨0, hn⟩) (xb4 m c ⟨0, hn⟩) (k0_pay2 (F := F)),
      pmStep (xb3 m c ⟨0, hn⟩) (xb4 m c ⟨0, hn⟩) (k0_pay3 (F := F))) := rfl

theorem accAt_succ (c : Dev nD) (n : ℕ) (hn : n + 1 < cfg0.N) :
    accAt m c (n + 1) hn = (sqStep (xb0 m c ⟨n + 1, hn⟩) (xb1 m c ⟨n + 1, hn⟩) (xb2 m c ⟨n + 1, hn⟩) (xb3 m c ⟨n + 1, hn⟩) (xb4 m c ⟨n + 1, hn⟩)
        (accAt m c n (Nat.lt_of_succ_lt hn)).1,
      pmStep (xb3 m c ⟨n + 1, hn⟩) (xb4 m c ⟨n + 1, hn⟩) (accAt m c n (Nat.lt_of_succ_lt hn)).2) := rfl

/-- The last point. -/
abbrev tLast : Fin cfg0.N := ⟨95, by have h : cfg0.N = 96 := N_0; omega⟩

/-- What the lines after the region compute from the two cells. -/
def resultOf (a b : Vec F S1x1 .f32) : (⟨S_, .f32⟩ : BufTy).Contents (Elt F) :=
  mulf (Host.divf (shapeCast S_ a shapeCasts_S1x1_S_) (constant S_ .f32 0x4C100000#32))
    (Host.divf (shapeCast S_ b shapeCasts_S1x1_S_) (constant S_ .f32 0x4C100000#32))

end Cert.KernelIdeal.Hand

end
-- ==== Proof.KIDat.lean ====
/-
  The pipeline's proof data. Each array as the region finds it; after the body at a point every input window's
  staging buffer holds its block, and (at the last point, the only one that writes them back) the two output windows'
  buffers hold the two running sums. Between points the kernel keeps the two sums in its scratch cells: anything
  before the first point, `accAt` afterwards. The coordinates' array is read through two windows and so is the mask's:
  each of those pairs holds its array at the two halves of the full share; nothing is owed.
-/
import proofs.«165863_j34926674051539_1_alg».proof.Proof.KIAcc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the kernel keeps between points: nothing named before the first, the two running sums afterwards. -/
def Phi (c : Dev nD) : (n : ℕ) → n ≤ cfg0.N → sProp 𝕄
  | 0, _ => iprop((∃ d, owns (c : Thread nD τ) scM0_0 fullShare d) ∗ (∃ d, owns (c : Thread nD τ) scM0_1 fullShare d))
  | n + 1, hn => iprop(owns (c : Thread nD τ) scM0_0 fullShare (accAt m c n hn).1 ∗ owns (c : Thread nD τ) scM0_1 fullShare (accAt m c n hn).2)

theorem Phi_zero (c : Dev nD) (n : ℕ) (h : n ≤ cfg0.N) (hz : n = 0) :
    Phi m c n h = iprop((∃ d, owns (c : Thread nD τ) scM0_0 fullShare d) ∗ (∃ d, owns (c : Thread nD τ) scM0_1 fullShare d)) := by
  subst hz; rfl

theorem Phi_succ (c : Dev nD) (n : ℕ) (hn : n < cfg0.N) :
    Phi m c (n + 1) hn = iprop(owns (c : Thread nD τ) scM0_0 fullShare (accAt m c n hn).1 ∗ owns (c : Thread nD τ) scM0_1 fullShare (accAt m c n hn).2) := rfl

theorem Phi_pos (c : Dev nD) (n : ℕ) (h : n ≤ cfg0.N) (hz : n ≠ 0) :
    Phi m c n h = iprop(owns (c : Thread nD τ) scM0_0 fullShare (accAt m c (n - 1) (by omega)).1 ∗ owns (c : Thread nD τ) scM0_1 fullShare (accAt m c (n - 1) (by omega)).2) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (accAt m c t.val t.isLt).1
    | ⟨6, _⟩ => (accAt m c t.val t.isLt).2
  Φ t := Phi m c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (accAt m c t.val t.isLt).1 := by dsimp only [dats]
theorem after0_6 (c : Dev nD) (t : Fin cfg0.N) : (dats m 0 c).after 6 t = (accAt m c t.val t.isLt).2 := by dsimp only [dats]

end Cert.KernelIdeal.Hand

end
-- ==== Proof.KITail.lean ====
/-
  The contents at the region's exit and after the seven scalar lines. Each output array is one cell, its one block the
  whole array, written back at the last point only: so each ends holding its running sum. The lines then reshape the
  two cells to scalars, divide each by the count and multiply; they write none of the four arguments.
-/
import proofs.«165863_j34926674051539_1_alg».proof.Proof.KIDat
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest scopedRest arrRef)

/-! ## The two output arrays at the region's exit -/

/-- The one-cell shape has one index. -/
theorem idx_S1x1_eq (a b : S1x1.Idx) : a = b := funext fun d => Fin.ext (by
  match d with
  | ⟨0, h⟩ =>
    have ha : (a ⟨0, h⟩).val < 1 := (a ⟨0, h⟩).isLt
    have hb : (b ⟨0, h⟩).val < 1 := (b ⟨0, h⟩).isLt
    omega
  | ⟨1, h⟩ =>
    have ha : (a ⟨1, h⟩).val < 1 := (a ⟨1, h⟩).isLt
    have hb : (b ⟨1, h⟩).val < 1 := (b ⟨1, h⟩).isLt
    omega)

/-- Output window 5's array ends holding the first running sum. -/
theorem arrAt_5 (c : Dev nD) : (dats m 0 c).arrAt 5 cfg0.N = (accAt m c tLast.val tLast.isLt).1 := by
  have hN : cfg0.N = 96 := N_0
  refine (dats m 0 c).arrAt_eq_of_cover 5 _ (fun t hf => ?_) (fun i => ⟨tLast, (flush0_5 tLast).mpr rfl, ?_⟩)
  · have ht : t = tLast := Fin.ext (by
      have h1 := (flush0_5 t).mp hf
      have h2 := t.isLt
      show t.val = 95
      omega)
    subst ht
    show (cfg0.win 5).cut (grid0.coords tLast) ((dats m 0 c).after 5 tLast) = _
    rw [after0_5]
    funext y
    rw [View.read_apply]
    exact congrArg (accAt m c tLast.val tLast.isLt).1 (idx_S1x1_eq _ _)
  · have y : ((cfg0.win 5).xblock (grid0.coords tLast)).Idx := fun a =>
      match a with
      | ⟨0, _⟩ => ⟨0, Nat.one_pos⟩
      | ⟨1, _⟩ => ⟨0, Nat.one_pos⟩
    rw [idx_S1x1_eq i (((cfg0.win 5).blk tLast).view.emb y)]
    exact View.emb_mem_set _ y

/-- Output window 6's array ends holding the second running sum. -/
theorem arrAt_6 (c : Dev nD) : (dats m 0 c).arrAt 6 cfg0.N = (accAt m c tLast.val tLast.isLt).2 := by
  have hN : cfg0.N = 96 := N_0
  refine (dats m 0 c).arrAt_eq_of_cover 6 _ (fun t hf => ?_) (fun i => ⟨tLast, (flush0_6 tLast).mpr rfl, ?_⟩)
  · have ht : t = tLast := Fin.ext (by
      have h1 := (flush0_6 t).mp hf
      have h2 := t.isLt
      show t.val = 95
      omega)
    subst ht
    show (cfg0.win 6).cut (grid0.coords tLast) ((dats m 0 c).after 6 tLast) = _
    rw [after0_6]
    funext y
    rw [View.read_apply]
    exact congrArg (accAt m c tLast.val tLast.isLt).2 (idx_S1x1_eq _ _)
  · have y : ((cfg0.win 6).xblock (grid0.coords tLast)).Idx := fun a =>
      match a with
      | ⟨0, _⟩ => ⟨0, Nat.one_pos⟩
      | ⟨1, _⟩ => ⟨0, Nat.one_pos⟩
    rw [idx_S1x1_eq i (((cfg0.win 6).blk tLast).view.emb y)]
    exact View.emb_mem_set _ y

/-! ## The lines after the region -/

/-- The contents at the region's exit, as a valuation: the two output arrays at the running sums, every other buffer
    as the region found it. -/
def Wx (c : Dev nD) : Valuation τ sig (Elt F) := fun b =>
  if h5 : b = Proc.devRef .tc main_v2_0 then cast (congrArg (fun r : DevRef τ sig => r.ty.Contents (Elt F)) h5.symm) ((accAt m c tLast.val tLast.isLt).1 : Vec F S1x1 .f32)
  else if h6 : b = Proc.devRef .tc main_v2_1 then cast (congrArg (fun r : DevRef τ sig => r.ty.Contents (Elt F)) h6.symm) ((accAt m c tLast.val tLast.isLt).2 : Vec F S1x1 .f32)
  else V0 m c b

theorem Wx_main_v2_0 (c : Dev nD) : Wx m c (Proc.devRef .tc main_v2_0) = (accAt m c tLast.val tLast.isLt).1 := by
  unfold Wx; rw [dif_pos rfl]; rfl
theorem Wx_main_v2_1 (c : Dev nD) : Wx m c (Proc.devRef .tc main_v2_1) = (accAt m c tLast.val tLast.isLt).2 := by
  unfold Wx; rw [dif_neg (StableHlo.devRef_ne_of_ne (by decide)), dif_pos rfl]; rfl
/-- Every other buffer is as the region found it. -/
theorem Wx_of_ne (c : Dev nD) (b : Ref sig .tc) (h5 : b ≠ main_v2_0) (h6 : b ≠ main_v2_1) :
    Wx m c (Proc.devRef .tc b) = V m c b := by
  unfold Wx; rw [dif_neg (StableHlo.devRef_ne_of_ne h5), dif_neg (StableHlo.devRef_ne_of_ne h6)]

/-- The contents after the seven lines. -/
abbrev Wt (c : Dev nD) : Valuation τ sig (Elt F) := StableHlo.after hostOps1 (Wx m c)

/-- The buffers no window stages, after the lines. -/
def tailRest (c : Dev nD) : sProp 𝕄 := unscopedRest spec0 c (fun b => Wt m c (Proc.devRef .tc b))

/-- @main's result after the lines: the two sums each divided by the count, multiplied. -/
theorem Wt_main_v7 (c : Dev nD) :
    Wt m c (Proc.devRef .tc main_v7) = resultOf (accAt m c tLast.val tLast.isLt).1 (accAt m c tLast.val tLast.isLt).2 := by
  show StableHlo.after hostOps1 (Wx m c) (Proc.devRef .tc main_v7) = _
  after_results
  rw [Wx_main_v2_0, Wx_main_v2_1]
  rfl

theorem Wt_main_arg1 (c : Dev nD) : Wt m c (Proc.devRef .tc main_arg1) = m ((c : Thread nD τ).loc main_arg1) := by
  have h : Wt m c (Proc.devRef .tc main_arg1) = Wx m c (Proc.devRef .tc main_arg1) :=
    StableHlo.after_of_forall_not_mem (b := Proc.devRef .tc main_arg1) _ _ (List.forall_iff_forall_mem.mp (by
      simp only [hostOps1, List.Forall, StableHlo.reshape_writes, StableHlo.nullary_writes, StableHlo.binary_writes,
        Finset.mem_singleton]
      repeat' apply And.intro
      all_goals exact StableHlo.devRef_ne_of_ne (by decide)))
  rw [h, Wx_of_ne m c main_arg1 (by decide) (by decide)]
  exact V_main_arg1 m c
theorem Wt_main_arg2 (c : Dev nD) : Wt m c (Proc.devRef .tc main_arg2) = m ((c : Thread nD τ).loc main_arg2) := by
  have h : Wt m c (Proc.devRef .tc main_arg2) = Wx m c (Proc.devRef .tc main_arg2) :=
    StableHlo.after_of_forall_not_mem (b := Proc.devRef .tc main_arg2) _ _ (List.forall_iff_forall_mem.mp (by
      simp only [hostOps1, List.Forall, StableHlo.reshape_writes, StableHlo.nullary_writes, StableHlo.binary_writes,
        Finset.mem_singleton]
      repeat' apply And.intro
      all_goals exact StableHlo.devRef_ne_of_ne (by decide)))
  rw [h, Wx_of_ne m c main_arg2 (by decide) (by decide)]
  exact V_main_arg2 m c
theorem Wt_main_arg3 (c : Dev nD) : Wt m c (Proc.devRef .tc main_arg3) = m ((c : Thread nD τ).loc main_arg3) := by
  have h : Wt m c (Proc.devRef .tc main_arg3) = Wx m c (Proc.devRef .tc main_arg3) :=
    StableHlo.after_of_forall_not_mem (b := Proc.devRef .tc main_arg3) _ _ (List.forall_iff_forall_mem.mp (by
      simp only [hostOps1, List.Forall, StableHlo.reshape_writes, StableHlo.nullary_writes, StableHlo.binary_writes,
        Finset.mem_singleton]
      repeat' apply And.intro
      all_goals exact StableHlo.devRef_ne_of_ne (by decide)))
  rw [h, Wx_of_ne m c main_arg3 (by decide) (by decide)]
  exact V_main_arg3 m c

/-! ## The arrays and the other buffers under the exit valuation and after the lines -/

/-- A buffer none of the seven lines writes holds after them what it held at the region's exit. -/
theorem Wt_of_not_written (c : Dev nD) (b : Ref sig .tc) (h3 : b ≠ main_v3) (hc : b ≠ main_cst) (h4 : b ≠ main_v4)
    (h5 : b ≠ main_v5) (hc0 : b ≠ main_cst_0) (h6 : b ≠ main_v6) (h7 : b ≠ main_v7) :
    Wt m c (Proc.devRef .tc b) = Wx m c (Proc.devRef .tc b) :=
  StableHlo.after_of_forall_not_mem (b := Proc.devRef .tc b) _ _ (List.forall_iff_forall_mem.mp (by
    simp only [hostOps1, List.Forall, StableHlo.reshape_writes, StableHlo.nullary_writes, StableHlo.binary_writes,
      Finset.mem_singleton]
    exact ⟨StableHlo.devRef_ne_of_ne h3, StableHlo.devRef_ne_of_ne hc, StableHlo.devRef_ne_of_ne h4,
      StableHlo.devRef_ne_of_ne h5, StableHlo.devRef_ne_of_ne hc0, StableHlo.devRef_ne_of_ne h6,
      StableHlo.devRef_ne_of_ne h7⟩))

/-- At the region's exit each window's array holds what the exit valuation says of its buffer. -/
theorem Wx_arr (c : Dev nD) (w : Fin cfg0.W) : (dats m 0 c).arrAt w cfg0.N = Wx m c (Proc.devRef .tc (Pipeline.arrRef spec0 w)) := by
  match w with
  | ⟨0, _⟩ => exact ((dats m 0 c).arrAt_in 0 rfl _).trans ((A_eq m c 0).trans (Wx_of_ne m c _ (by decide) (by decide)).symm)
  | ⟨1, _⟩ => exact ((dats m 0 c).arrAt_in 1 rfl _).trans ((A_eq m c 1).trans (Wx_of_ne m c _ (by decide) (by decide)).symm)
  | ⟨2, _⟩ => exact ((dats m 0 c).arrAt_in 2 rfl _).trans ((A_eq m c 2).trans (Wx_of_ne m c _ (by decide) (by decide)).symm)
  | ⟨3, _⟩ => exact ((dats m 0 c).arrAt_in 3 rfl _).trans ((A_eq m c 3).trans (Wx_of_ne m c _ (by decide) (by decide)).symm)
  | ⟨4, _⟩ => exact ((dats m 0 c).arrAt_in 4 rfl _).trans ((A_eq m c 4).trans (Wx_of_ne m c _ (by decide) (by decide)).symm)
  | ⟨5, _⟩ => exact (arrAt_5 m c).trans (Wx_main_v2_0 m c).symm
  | ⟨6, _⟩ => exact (arrAt_6 m c).trans (Wx_main_v2_1 m c).symm

/-- The seven lines write none of the five buffers behind the arrays. -/
theorem Wt_arr (c : Dev nD) (w : Fin cfg0.W) : (dats m 0 c).arrAt w cfg0.N = Wt m c (Proc.devRef .tc (Pipeline.arrRef spec0 w)) := by
  refine (Wx_arr m c w).trans (Eq.symm ?_)
  match w with
  | ⟨0, _⟩ => exact Wt_of_not_written m c main_arg0 (by decide) (by decide) (by decide) (by decide) (by decide) (by decide) (by decide)
  | ⟨1, _⟩ => exact Wt_of_not_written m c main_v0 (by decide) (by decide) (by decide) (by decide) (by decide) (by decide) (by decide)
  | ⟨2, _⟩ => exact Wt_of_not_written m c main_v0 (by decide) (by decide) (by decide) (by decide) (by decide) (by decide) (by decide)
  | ⟨3, _⟩ => exact Wt_of_not_written m c main_v1 (by decide) (by decide) (by decide) (by decide) (by decide) (by decide) (by decide)
  | ⟨4, _⟩ => exact Wt_of_not_written m c main_v1 (by decide) (by decide) (by decide) (by decide) (by decide) (by decide) (by decide)
  | ⟨5, _⟩ => exact Wt_of_not_written m c main_v2_0 (by decide) (by decide) (by decide) (by decide) (by decide) (by decide) (by decide)
  | ⟨6, _⟩ => exact Wt_of_not_written m c main_v2_1 (by decide) (by decide) (by decide) (by decide) (by decide) (by decide) (by decide)

/-- The buffers no window stages, as the region found them, are the exit valuation's. -/
theorem rest_Wx (c : Dev nD) : (Pipeline.unscopedRest spec0 c (V m c) : sProp 𝕄) = Pipeline.unscopedRest spec0 c (fun b => Wx m c (Proc.devRef .tc b)) := by
  rw [unscopedRest0_eq, unscopedRest0_eq]
  rw [Wx_of_ne m c main_arg1 (by decide) (by decide), Wx_of_ne m c main_arg2 (by decide) (by decide),
    Wx_of_ne m c main_arg3 (by decide) (by decide), Wx_of_ne m c main_v3 (by decide) (by decide),
    Wx_of_ne m c main_cst (by decide) (by decide), Wx_of_ne m c main_v4 (by decide) (by decide),
    Wx_of_ne m c main_v5 (by decide) (by decide), Wx_of_ne m c main_cst_0 (by decide) (by decide),
    Wx_of_ne m c main_v6 (by decide) (by decide), Wx_of_ne m c main_v7 (by decide) (by decide)]

end Cert.KernelIdeal.Hand

end
-- ==== Proof.KILaunch.lean ====
/-
  The launch. The coordinates' array is read by two windows and so is the mask's; each of those arrays' full share is
  split in two halves, one per window, at the region's entry. After the region the seven scalar lines read the two
  output arrays (each one cell, the whole array its one block, written back at the last point only: so each ends
  holding its running sum) and write @main's scalar buffers; the four argument arrays are written by nothing.
-/
import proofs.«165863_j34926674051539_1_alg».proof.Proof.KITail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest scopedRest arrRef)

/-! ## The arrays dealt to the windows -/

/-- The share each window holds its array at: full for the distance maps and the two outputs, a half each for the
    two windows on the coordinates and the two on the mask. -/
theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare.left := rfl
theorem share_4 (c : Dev nD) : (dats m 0 c).share 4 = fullShare.right := rfl
theorem share_5 (c : Dev nD) : (dats m 0 c).share 5 = fullShare := rfl
theorem share_6 (c : Dev nD) : (dats m 0 c).share 6 = fullShare := rfl

/-- The buffer behind each window's array. -/
theorem arrRef_0 : arrRef spec0 0 = main_arg0 := by decide
theorem arrRef_1 : arrRef spec0 1 = main_v0 := by decide
theorem arrRef_2 : arrRef spec0 2 = main_v0 := by decide
theorem arrRef_3 : arrRef spec0 3 = main_v1 := by decide
theorem arrRef_4 : arrRef spec0 4 = main_v1 := by decide
theorem arrRef_5 : arrRef spec0 5 = main_v2_0 := by decide
theorem arrRef_6 : arrRef spec0 6 = main_v2_1 := by decide

/-- A points-to of a buffer's contents given by a family, along an equation of buffers. -/
theorem pt_congr (c : Dev nD) (W : (b : Ref sig .tc) → Buf (Elt F) ((c.tc : Thread nD τ).loc b)) (q : PosShare TreeShare)
    {b b' : Ref sig .tc} (e : b = b') :
    ((((c.tc : Thread nD τ).loc b) ↦{q} W b) : sProp 𝕄) = (((c.tc : Thread nD τ).loc b') ↦{q} W b') := by
  subst e; rfl

/-- A window's array, a whole buffer, held at the family's contents at the window's share. -/
theorem arr_conj (c : Dev nD) (W : (b : Ref sig .tc) → Buf (Elt F) ((c.tc : Thread nD τ).loc b)) (w : Fin cfg0.W) :
    ((cfg0.win w).arr.view.loc (c.tc : Thread nD τ) ↦[(cfg0.win w).arr.view.set]{(dats m 0 c).share w} W (arrRef spec0 w) : sProp 𝕄)
      = (((c.tc : Thread nD τ).loc (arrRef spec0 w)) ↦{(dats m 0 c).share w} W (arrRef spec0 w)) := by
  rw [(arr_whole0 w).set_eq_univ]

/-- The five distinct buffers behind the seven windows' arrays, one by one. -/
theorem arrBufs_eq (c : Dev nD) (W : (b : Ref sig .tc) → Buf (Elt F) ((c.tc : Thread nD τ).loc b)) :
    (arrBufs spec0 c W : sProp 𝕄)
      = iprop((((c.tc : Thread nD τ).loc main_arg0) ↦{fullShare} W main_arg0) ∗ (((c.tc : Thread nD τ).loc main_v0) ↦{fullShare} W main_v0)
          ∗ (((c.tc : Thread nD τ).loc main_v1) ↦{fullShare} W main_v1) ∗ (((c.tc : Thread nD τ).loc main_v2_0) ↦{fullShare} W main_v2_0)
          ∗ (((c.tc : Thread nD τ).loc main_v2_1) ↦{fullShare} W main_v2_1)) := by
  unfold Pipeline.arrBufs
  exact bigSep_eq_bigSepL_of_eq [main_arg0, main_v0, main_v1, main_v2_0, main_v2_1] (by decide) (by decide) _

/-- The five buffers, each whole at the full share at contents `W`, make the seven windows' arrays at contents `G`
    that agree with `W` buffer by buffer: the coordinates' and the mask's full shares are split in halves. -/
theorem arrays_of_arrBufs (c : Dev nD) (W : (b : Ref sig .tc) → Buf (Elt F) ((c.tc : Thread nD τ).loc b))
    (G : (w : Fin cfg0.W) → Buf (Elt F) ((cfg0.win w).arr.view.loc (c.tc : Thread nD τ))) (h : ∀ w, G w = W (arrRef spec0 w)) :
    (arrBufs spec0 c W : sProp 𝕄) ⊢ (dats m 0 c).arrays G := by
  rw [arrBufs_eq]
  unfold Dat.arrays
  rw [bigSep_W0]
  simp only [h]
  rw [arr_conj m c W 0, arr_conj m c W 1, arr_conj m c W 2, arr_conj m c W 3, arr_conj m c W 4, arr_conj m c W 5, arr_conj m c W 6,
    pt_congr c W _ arrRef_0, pt_congr c W _ arrRef_1, pt_congr c W _ arrRef_2, pt_congr c W _ arrRef_3, pt_congr c W _ arrRef_4,
    pt_congr c W _ arrRef_5, pt_congr c W _ arrRef_6, share_0, share_1, share_2, share_3, share_4, share_5, share_6]
  iintro ⟨H0, Hv0, Hv1, H5, H6⟩
  ihave ⟨Hv0l, Hv0r⟩ := (pointsTo_share (PosShare.mem_left_op_right fullShare)).1 $$ Hv0
  ihave ⟨Hv1l, Hv1r⟩ := (pointsTo_share (PosShare.mem_left_op_right fullShare)).1 $$ Hv1
  isplitl [H0]; · iexact H0
  isplitl [Hv0l]; · iexact Hv0l
  isplitl [Hv0r]; · iexact Hv0r
  isplitl [Hv1l]; · iexact Hv1l
  isplitl [Hv1r]; · iexact Hv1r
  isplitl [H5]; · iexact H5
  iexact H6

/-- And back: the halves of the coordinates' and of the mask's array rejoin. -/
theorem arrBufs_of_arrays (c : Dev nD) (W : (b : Ref sig .tc) → Buf (Elt F) ((c.tc : Thread nD τ).loc b))
    (G : (w : Fin cfg0.W) → Buf (Elt F) ((cfg0.win w).arr.view.loc (c.tc : Thread nD τ))) (h : ∀ w, G w = W (arrRef spec0 w)) :
    (dats m 0 c).arrays G ⊢ (arrBufs spec0 c W : sProp 𝕄) := by
  rw [arrBufs_eq]
  unfold Dat.arrays
  rw [bigSep_W0]
  simp only [h]
  rw [arr_conj m c W 0, arr_conj m c W 1, arr_conj m c W 2, arr_conj m c W 3, arr_conj m c W 4, arr_conj m c W 5, arr_conj m c W 6,
    pt_congr c W _ arrRef_0, pt_congr c W _ arrRef_1, pt_congr c W _ arrRef_2, pt_congr c W _ arrRef_3, pt_congr c W _ arrRef_4,
    pt_congr c W _ arrRef_5, pt_congr c W _ arrRef_6, share_0, share_1, share_2, share_3, share_4, share_5, share_6]
  iintro ⟨H0, Hv0l, Hv0r, Hv1l, Hv1r, H5, H6⟩
  isplitl [H0]; · iexact H0
  isplitl [Hv0l Hv0r]
  · iapply (pointsTo_share (PosShare.mem_left_op_right fullShare)).2
    isplitl [Hv0l]; · iexact Hv0l
    iexact Hv0r
  isplitl [Hv1l Hv1r]
  · iapply (pointsTo_share (PosShare.mem_left_op_right fullShare)).2
    isplitl [Hv1l]; · iexact Hv1l
    iexact Hv1r
  isplitl [H5]; · iexact H5
  iexact H6

theorem hsplit (c : Dev nD) :
    (arrBufs spec0 c (V m c) : sProp 𝕄) ⊢ (dats m 0 c).arrays ((dats m 0 c).arrAt · 0) :=
  arrays_of_arrBufs m c (V m c) _ fun _ => rfl

/-! ## The lines after the region -/

/-- At the region's exit the windows' arrays and the buffers no window stages are all of the core's unscoped
    buffers, each whole, at the exit valuation: the halves rejoin. -/
theorem exit_held (c : Dev nD) :
    iprop((dats m 0 c).arrays ((dats m 0 c).arrAt · cfg0.N) ∗ unscopedRest spec0 c (V m c))
      ⊢ (StableHlo.held (c.tc : Thread nD τ) (Pipeline.ucRefs τ sig) (Wx m c) : sProp 𝕄) := by
  rw [← Pipeline.unscopedBufs_held (Ix := Unit) (Name := ℕ) (U := UR sig nD τ) (Lvl := ℕ) c (Wx m c),
    Pipeline.unscopedBufs_split₀ cfgs 0 winFacts₀0.arr_unscoped c, rest_Wx m c]
  iintro ⟨HA, HR⟩
  isplitl [HA]
  · iapply (arrBufs_of_arrays m c (fun b => Wx m c (Proc.devRef .tc b)) _ (Wx_arr m c)); iexact HA
  · iexact HR

/-- After the lines they split again into the windows' arrays, which no line wrote, and the rest. -/
theorem held_exit (c : Dev nD) :
    (StableHlo.held (c.tc : Thread nD τ) (Pipeline.ucRefs τ sig) (Wt m c) : sProp 𝕄)
      ⊢ iprop((dats m 0 c).arrays ((dats m 0 c).arrAt · cfg0.N) ∗ tailRest m c) := by
  rw [← Pipeline.unscopedBufs_held (Ix := Unit) (Name := ℕ) (U := UR sig nD τ) (Lvl := ℕ) c (Wt m c),
    Pipeline.unscopedBufs_split₀ cfgs 0 winFacts₀0.arr_unscoped c]
  unfold tailRest
  iintro ⟨HA, HR⟩
  isplitl [HA]
  · iapply (arrays_of_arrBufs m c (fun b => Wt m c (Proc.devRef .tc b)) _ (Wt_arr m c)); iexact HA
  · iexact HR

-- the host-line rule is stated for any thread; at the TensorCore thread it unifies only when unification may unfold
-- plain definitions in a metavariable's type
set_option backward.isDefEq.respectTransparency.types false in
theorem htail (c : Dev nD) (Q' : PUnit → sProp 𝕄) :
    iprop((iprop((dats m 0 c).arrays ((dats m 0 c).arrAt · cfg0.N) ∗ tailRest m c) -∗ Q' ⟨⟩)
        ∗ boundary (c.tc : Thread nD τ) ∗ (dats m 0 c).arrays ((dats m 0 c).arrAt · cfg0.N) ∗ unscopedRest spec0 c (V m c))
      ⊢ wp frame (wpE (defs (F := F)) (Variants.lift Variants.none) (c.tc : Thread nD τ) none) Set.univ (Pipeline.chain [StableHlo.seq hostOps1]) Q' := by
  have hsub : ∀ op ∈ (hostOps1 : List (HloOp τ sig (Elt F))), op.bufs ⊆ Pipeline.ucRefs τ sig :=
    fun op h => Pipeline.sub_ucRefs op ((List.forall_iff_forall_mem.mp hostOps1_sub) op h)
  have hfresh : ∀ op ∈ (hostOps1 : List (HloOp τ sig (Elt F))), op.fresh = ∅ :=
    fun op h => (List.forall_iff_forall_mem.mp hostOps1_fresh) op h
  rw [Pipeline.chain_cons, Pipeline.chain_nil]
  iintro ⟨Hk, Hb, HA, HR⟩
  ihave HU := (exit_held m c) $$ [HA HR]
  · isplitl [HA]
    · iexact HA
    · iexact HR
  iapply (StableHlo.wp_seq (Variants.lift Variants.none) none Set.univ c (Pipeline.ucRefs τ sig) _ hostOps1 hsub hfresh (Wx m c)) $$ [Hb HU]
  · isplitl [Hb]
    · iexact Hb
    · iexact HU
  iintro ⟨Hb, HU⟩
  iapply (le_wp_ret _ _ _ _ Q')
  iapply Hk
  iapply (held_exit m c)
  iexact HU

/-! ## The run -/

theorem run_main (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v7) = resultOf (accAt m c tLast.val tLast.isLt).1 (accAt m c tLast.val tLast.isLt).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  refine Pipeline.θ_run_region_noSem_pf_tail (fun p => (cfgs p).toPCfg) (fun p => (cfgs p).toPCfg_adm) (dats m) () cellOf_inj 0 winFacts₀0
    (Pipeline.PreFacts.none _) emb₁ defs₀ Variants.none m ρ main (fun _ => Pipeline.chain [StableHlo.seq hostOps1])
    (fun c => (hbody c).loose) block_pos0 arr_whole0 stage_whole0 (fun _ _ => rfl)
    (initOf (Pipeline.cells cfgs cellOf_inj) (Pipeline.launchToks cfgs cellOf_inj)) .rfl
    (V m) (hmain m Variants.none) (hsplit m) (fun _ k => k.elim0)
    (fun _ => iprop(emp)) (fun _ => iprop(emp)) (fun c => unscopedRest spec0 c (V m c)) (tailRest m)
    ?hX ?hin ?hout (htail m)
    (fun c s => ∀ b ∈ Pipeline.restRefs sig spec0, s.mem ((c.tc : Thread nD τ).loc b) = Wt m c (Proc.devRef .tc b))
    ?hY ?hQ
  case hX =>
    intro c
    rw [Pipeline.unscopedRestP_none]
    iintro H
    isplitr
    · iempintro
    · iexact H
  case hin =>
    intro c
    rw [show (dats m 0 c).Φ 0 = Phi m c 0 (Nat.zero_le _) from rfl, Phi_zero m c 0 _ rfl, scopedRest0_eq]
    simp only [scM0_0, scM0_1, owns_whole]
    iintro ⟨-, -, H⟩
    iexact H
  case hout =>
    intro c
    have hN : cfg0.N ≠ 0 := by have h : cfg0.N = 96 := N_0; omega
    rw [show (dats m 0 c).Φ (Fin.last cfg0.N) = Phi m c cfg0.N le_rfl from rfl, Phi_pos m c _ _ hN, scopedRest0_eq]
    simp only [scM0_0, scM0_1, owns_whole]
    iintro ⟨H0, H1⟩
    isplitr
    · iempintro
    isplitl [H0]
    · iexists _; iexact H0
    · iexists _; iexact H1
  case hY =>
    intro c s'
    iintro ⟨-, HU, HSI⟩
    unfold tailRest unscopedRest
    imodintro
    iapply (pointsTo_read_all (Pipeline.restRefs sig spec0) (fun b => (c.tc : Thread nD τ).loc b) (fun b => Wt m c (Proc.devRef .tc b)) s')
    isplitl [HU] <;> iassumption
  case hQ =>
    intro s h c
    obtain ⟨harrs, -, hrest⟩ := h c
    refine ⟨?_, ?_, ?_, ?_, ?_⟩
    · exact (hrest main_v7 (Pipeline.mem_restRefs_of main_v7 rfl (by decide))).trans (Wt_main_v7 m c)
    · exact (harrs 0).trans (((dats m 0 c).arrAt_in 0 rfl _).trans ((A_eq m c 0).trans (V_main_arg0 m c)))
    · exact (hrest main_arg1 (Pipeline.mem_restRefs_of main_arg1 rfl (by decide))).trans (Wt_main_arg1 m c)
    · exact (hrest main_arg2 (Pipeline.mem_restRefs_of main_arg2 rfl (by decide))).trans (Wt_main_arg2 m c)
    · exact (hrest main_arg3 (Pipeline.mem_restRefs_of main_arg3 rfl (by decide))).trans (Wt_main_arg3 m c)

end Cert.KernelIdeal.Hand

end
-- ==== Proof.KIRunA.lean ====
/-
  The kernel body run once, whole, in case A of its two branch conditions: the first grid point, which resets the two
  running sums and then advances them; the outputs are left alone.
-/
import proofs.«165863_j34926674051539_1_alg».proof.Proof.KIFrame0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run below is one long chain of rule applications, one per memory operation of the body)
set_option maxHeartbeats 1000000 in
/-- The whole body at a point where the first condition holds and the second does not (the first point): from the
    five input buffers at their contents, the two output buffers at any contents (handed back untouched), and the two
    scratch cells at anything, it runs to the inputs and outputs as they were and each scratch cell with its pieces
    written (last store first). -/
noncomputable def kernelRun0_A (c : Dev nD) (i : grid0.Coords) (arg2 : Memref sig .tc .vmem S1x256x1536 .f32) (harg2 : arg2.IsWhole) (arg3 : Memref sig .tc .vmem S1x256x3 .f32) (harg3 : arg3.IsWhole) (arg4 : Memref sig .tc .vmem S1x1536x3 .f32) (harg4 : arg4.IsWhole) (arg5 : Memref sig .tc .vmem S1x256x1 .i32) (harg5 : arg5.IsWhole) (arg6 : Memref sig .tc .vmem S1x1536x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 : Vec F S1x256x1536 .f32) (x1 : Vec F S1x256x3 .f32) (x2 : Vec F S1x1536x3 .f32) (x3 : Vec F S1x256x1 .i32) (x4 : Vec F S1x1536x1 .i32) :
    Σ' (LS0 : List (View.Piece (Elt F) S1x1 .f32)), { LS1 : List (View.Piece (Elt F) S1x1 .f32) //
      ∀ (xi5 xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  -- the piece lists are left open: the run fixes them when it hands each written buffer to the continuation
  refine ⟨?_, ?_, fun xi5 xi6 E K => ?run⟩
  case run =>
    -- the body as memory operations over its named payloads
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    -- a whole buffer read as a given vector holds that vector laid out
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    -- through the body: the two conditionals are decided by the case's hypotheses
    sl_exec (disch := first | exact hc0 | exact hc1)
    sl_step
    iapply Hk
    -- a buffer the body only read is handed back as it came; a written one with the pieces the run left
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KIRunB.lean ====
/-
  The kernel body run once, whole, in case B of its two branch conditions: a middle grid point, which advances the two
  running sums; the outputs are left alone.
-/
import proofs.«165863_j34926674051539_1_alg».proof.Proof.KIRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run below is one long chain of rule applications, one per memory operation of the body)
set_option maxHeartbeats 1000000 in
/-- The whole body at a point where neither condition holds (a middle point): from the five input buffers at their
    contents, the two output buffers at any contents (handed back untouched), and the two scratch cells at what the
    point before left, it runs to the inputs and outputs as they were and each scratch cell with its pieces written. -/
noncomputable def kernelRun0_B (c : Dev nD) (i : grid0.Coords) (arg2 : Memref sig .tc .vmem S1x256x1536 .f32) (harg2 : arg2.IsWhole) (arg3 : Memref sig .tc .vmem S1x256x3 .f32) (harg3 : arg3.IsWhole) (arg4 : Memref sig .tc .vmem S1x1536x3 .f32) (harg4 : arg4.IsWhole) (arg5 : Memref sig .tc .vmem S1x256x1 .i32) (harg5 : arg5.IsWhole) (arg6 : Memref sig .tc .vmem S1x1536x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 : Vec F S1x256x1536 .f32) (x1 : Vec F S1x256x3 .f32) (x2 : Vec F S1x1536x3 .f32) (x3 : Vec F S1x256x1 .i32) (x4 : Vec F S1x1536x1 .i32) (xs0 xs1 : Vec F S1x1 .f32) :
    Σ' (LS0 : List (View.Piece (Elt F) S1x1 .f32)), { LS1 : List (View.Piece (Elt F) S1x1 .f32) //
      ∀ (xi5 xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  -- the piece lists are left open: the run fixes them when it hands each written buffer to the continuation
  refine ⟨?_, ?_, fun xi5 xi6 E K => ?run⟩
  case run =>
    -- the body as memory operations over its named payloads
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    -- a whole buffer read as a given vector holds that vector laid out
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    obtain rfl := harg9.eq_unread hfs0; obtain rfl := harg10.eq_unread hfs1
    -- through the body: the two conditionals are decided by the case's hypotheses
    sl_exec (disch := first | exact hc0 | exact hc1)
    sl_step
    iapply Hk
    -- a buffer the body only read is handed back as it came; a written one with the pieces the run left
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KIRunC.lean ====
/-
  The kernel body run once, whole, in case C of its two branch conditions: the last grid point, which advances the two
  running sums and copies them to the two outputs.
-/
import proofs.«165863_j34926674051539_1_alg».proof.Proof.KIRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run below is one long chain of rule applications, one per memory operation of the body)
set_option maxHeartbeats 1000000 in
/-- The whole body at a point where the second condition holds and the first does not (the last point): from the five
    input buffers at their contents, the two output buffers at anything, and the two scratch cells at what the point
    before left, it runs to the inputs as they were and each output buffer and each scratch cell with its pieces
    written. -/
noncomputable def kernelRun0_C (c : Dev nD) (i : grid0.Coords) (arg2 : Memref sig .tc .vmem S1x256x1536 .f32) (harg2 : arg2.IsWhole) (arg3 : Memref sig .tc .vmem S1x256x3 .f32) (harg3 : arg3.IsWhole) (arg4 : Memref sig .tc .vmem S1x1536x3 .f32) (harg4 : arg4.IsWhole) (arg5 : Memref sig .tc .vmem S1x256x1 .i32) (harg5 : arg5.IsWhole) (arg6 : Memref sig .tc .vmem S1x1536x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1x256x1536 .f32) (x1 : Vec F S1x256x3 .f32) (x2 : Vec F S1x1536x3 .f32) (x3 : Vec F S1x256x1 .i32) (x4 : Vec F S1x1536x1 .i32) (xs0 xs1 : Vec F S1x1 .f32) :
    Σ' (L5 : List (View.Piece (Elt F) S1x1 .f32)) (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  -- the piece lists are left open: the run fixes them when it hands each written buffer to the continuation
  refine ⟨?_, ?_, ?_, ?_, fun E K => ?run⟩
  case run =>
    -- the body as memory operations over its named payloads
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    -- a whole buffer read as a given vector holds that vector laid out
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1
    -- through the body: the two conditionals are decided by the case's hypotheses
    sl_exec (disch := first | exact hc0 | exact hc1)
    sl_step
    iapply Hk
    -- a buffer the body only read is handed back as it came; a written one with the pieces the run left
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.KernelIdeal.Hand

end
-- ==== Proof.KIPieces.lean ====
/-
  What each case of the kernel body leaves in the two scratch cells and (at the last point) in the two output buffers,
  read back from the pieces the case's run wrote: the pure step functions of the two running sums.
-/
import proofs.«165863_j34926674051539_1_alg».proof.Proof.KIRunC
import proofs.«165863_j34926674051539_1_alg».proof.Proof.KIAcc
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 and of a rank-3 whole-buffer rectangle, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At the first point the first scratch cell ends at the step from the zero pattern: the reset piece, then the update piece whose load read the reset back. -/
theorem sread0_A_0 (c : Dev nD) (i : grid0.Coords) (arg2 : Memref sig .tc .vmem S1x256x1536 .f32) (harg2 : arg2.IsWhole) (arg3 : Memref sig .tc .vmem S1x256x3 .f32) (harg3 : arg3.IsWhole) (arg4 : Memref sig .tc .vmem S1x1536x3 .f32) (harg4 : arg4.IsWhole) (arg5 : Memref sig .tc .vmem S1x256x1 .i32) (harg5 : arg5.IsWhole) (arg6 : Memref sig .tc .vmem S1x1536x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 : Vec F S1x256x1536 .f32) (x1 : Vec F S1x256x3 .f32) (x2 : Vec F S1x1536x3 .f32) (x3 : Vec F S1x256x1 .i32) (x4 : Vec F S1x1536x1 .i32) (f : arg9.view.ty.Contents (Elt F)) :
    arg9.view.read (Elt F) (arg9.view.writes (Elt F) f (kernelRun0_A c i arg2 harg2 arg3 harg3 arg4 harg4 arg5 harg5 arg6 harg6 arg7 harg7 arg8 harg8 arg9 harg9 arg10 harg10 hc0 hc1 x0 x1 x2 x3 x4).1) = sqStep x0 x1 x2 x3 x4 (k0_pay2 (F := F)) := by
  -- the pieces cover the one cell, so the read-back is the pieces' own closed form, whatever the cell held
  rw [View.read_writes_eq_canon _ _ _ (fun y => View.cover_of_tiledL _ S1x1.size (by sl_kernel_rfl) y)]
  unfold kernelRun0_A; dsimp only; sl_unfold_words
  -- the last store fills the whole cell: its payload is what is left
  rw [View.canon_cons_unit_zero (S := S1x1) hz2]
  -- each whole-buffer load reads the buffer's contents; a load after a whole-cell store of the same run reads that store
  simp only [sqStep, View.readAt_eq_ld, harg2.read_unread, harg3.read_unread, harg4.read_unread, harg5.read_unread,
    harg6.read_unread, harg9.read_unread, harg10.read_unread, View.readCov_unit_zero (S := S1x1) _ hz2,
    View.ld_unit_zero (S := S1x256x1536) hz3, View.ld_unit_zero (S := S1x256x3) hz3, View.ld_unit_zero (S := S1x1536x3) hz3,
    View.ld_unit_zero (S := S1x256x1) hz3, View.ld_unit_zero (S := S1x1536x1) hz3, View.ld_unit_zero (S := S1x1) hz2]

/-- At the first point the second scratch cell ends at the step from the zero pattern. -/
theorem sread0_A_1 (c : Dev nD) (i : grid0.Coords) (arg2 : Memref sig .tc .vmem S1x256x1536 .f32) (harg2 : arg2.IsWhole) (arg3 : Memref sig .tc .vmem S1x256x3 .f32) (harg3 : arg3.IsWhole) (arg4 : Memref sig .tc .vmem S1x1536x3 .f32) (harg4 : arg4.IsWhole) (arg5 : Memref sig .tc .vmem S1x256x1 .i32) (harg5 : arg5.IsWhole) (arg6 : Memref sig .tc .vmem S1x1536x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 : Vec F S1x256x1536 .f32) (x1 : Vec F S1x256x3 .f32) (x2 : Vec F S1x1536x3 .f32) (x3 : Vec F S1x256x1 .i32) (x4 : Vec F S1x1536x1 .i32) (f : arg10.view.ty.Contents (Elt F)) :
    arg10.view.read (Elt F) (arg10.view.writes (Elt F) f (kernelRun0_A c i arg2 harg2 arg3 harg3 arg4 harg4 arg5 harg5 arg6 harg6 arg7 harg7 arg8 harg8 arg9 harg9 arg10 harg10 hc0 hc1 x0 x1 x2 x3 x4).2.1) = pmStep x3 x4 (k0_pay3 (F := F)) := by
  -- the pieces cover the one cell, so the read-back is the pieces' own closed form, whatever the cell held
  rw [View.read_writes_eq_canon _ _ _ (fun y => View.cover_of_tiledL _ S1x1.size (by sl_kernel_rfl) y)]
  unfold kernelRun0_A; dsimp only; sl_unfold_words
  -- the last store fills the whole cell: its payload is what is left
  rw [View.canon_cons_unit_zero (S := S1x1) hz2]
  -- each whole-buffer load reads the buffer's contents; a load after a whole-cell store of the same run reads that store
  simp only [pmStep, View.readAt_eq_ld, harg2.read_unread, harg3.read_unread, harg4.read_unread, harg5.read_unread,
    harg6.read_unread, harg9.read_unread, harg10.read_unread, View.readCov_unit_zero (S := S1x1) _ hz2,
    View.ld_unit_zero (S := S1x256x1536) hz3, View.ld_unit_zero (S := S1x256x3) hz3, View.ld_unit_zero (S := S1x1536x3) hz3,
    View.ld_unit_zero (S := S1x256x1) hz3, View.ld_unit_zero (S := S1x1536x1) hz3, View.ld_unit_zero (S := S1x1) hz2]

/-- At a middle point the first scratch cell ends at the step from what the point before left. -/
theorem sread0_B_0 (c : Dev nD) (i : grid0.Coords) (arg2 : Memref sig .tc .vmem S1x256x1536 .f32) (harg2 : arg2.IsWhole) (arg3 : Memref sig .tc .vmem S1x256x3 .f32) (harg3 : arg3.IsWhole) (arg4 : Memref sig .tc .vmem S1x1536x3 .f32) (harg4 : arg4.IsWhole) (arg5 : Memref sig .tc .vmem S1x256x1 .i32) (harg5 : arg5.IsWhole) (arg6 : Memref sig .tc .vmem S1x1536x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 : Vec F S1x256x1536 .f32) (x1 : Vec F S1x256x3 .f32) (x2 : Vec F S1x1536x3 .f32) (x3 : Vec F S1x256x1 .i32) (x4 : Vec F S1x1536x1 .i32) (xs0 xs1 : Vec F S1x1 .f32) (f : arg9.view.ty.Contents (Elt F)) :
    arg9.view.read (Elt F) (arg9.view.writes (Elt F) f (kernelRun0_B c i arg2 harg2 arg3 harg3 arg4 harg4 arg5 harg5 arg6 harg6 arg7 harg7 arg8 harg8 arg9 harg9 arg10 harg10 hc0 hc1 x0 x1 x2 x3 x4 xs0 xs1).1) = sqStep x0 x1 x2 x3 x4 xs0 := by
  -- the pieces cover the one cell, so the read-back is the pieces' own closed form, whatever the cell held
  rw [View.read_writes_eq_canon _ _ _ (fun y => View.cover_of_tiledL _ S1x1.size (by sl_kernel_rfl) y)]
  unfold kernelRun0_B; dsimp only; sl_unfold_words
  -- the last store fills the whole cell: its payload is what is left
  rw [View.canon_cons_unit_zero (S := S1x1) hz2]
  -- each whole-buffer load reads the buffer's contents; a load after a whole-cell store of the same run reads that store
  simp only [sqStep, View.readAt_eq_ld, harg2.read_unread, harg3.read_unread, harg4.read_unread, harg5.read_unread,
    harg6.read_unread, harg9.read_unread, harg10.read_unread, View.readCov_unit_zero (S := S1x1) _ hz2,
    View.ld_unit_zero (S := S1x256x1536) hz3, View.ld_unit_zero (S := S1x256x3) hz3, View.ld_unit_zero (S := S1x1536x3) hz3,
    View.ld_unit_zero (S := S1x256x1) hz3, View.ld_unit_zero (S := S1x1536x1) hz3, View.ld_unit_zero (S := S1x1) hz2]

/-- At a middle point the second scratch cell ends at the step from what the point before left. -/
theorem sread0_B_1 (c : Dev nD) (i : grid0.Coords) (arg2 : Memref sig .tc .vmem S1x256x1536 .f32) (harg2 : arg2.IsWhole) (arg3 : Memref sig .tc .vmem S1x256x3 .f32) (harg3 : arg3.IsWhole) (arg4 : Memref sig .tc .vmem S1x1536x3 .f32) (harg4 : arg4.IsWhole) (arg5 : Memref sig .tc .vmem S1x256x1 .i32) (harg5 : arg5.IsWhole) (arg6 : Memref sig .tc .vmem S1x1536x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 : Vec F S1x256x1536 .f32) (x1 : Vec F S1x256x3 .f32) (x2 : Vec F S1x1536x3 .f32) (x3 : Vec F S1x256x1 .i32) (x4 : Vec F S1x1536x1 .i32) (xs0 xs1 : Vec F S1x1 .f32) (f : arg10.view.ty.Contents (Elt F)) :
    arg10.view.read (Elt F) (arg10.view.writes (Elt F) f (kernelRun0_B c i arg2 harg2 arg3 harg3 arg4 harg4 arg5 harg5 arg6 harg6 arg7 harg7 arg8 harg8 arg9 harg9 arg10 harg10 hc0 hc1 x0 x1 x2 x3 x4 xs0 xs1).2.1) = pmStep x3 x4 xs1 := by
  -- the pieces cover the one cell, so the read-back is the pieces' own closed form, whatever the cell held
  rw [View.read_writes_eq_canon _ _ _ (fun y => View.cover_of_tiledL _ S1x1.size (by sl_kernel_rfl) y)]
  unfold kernelRun0_B; dsimp only; sl_unfold_words
  -- the last store fills the whole cell: its payload is what is left
  rw [View.canon_cons_unit_zero (S := S1x1) hz2]
  -- each whole-buffer load reads the buffer's contents; a load after a whole-cell store of the same run reads that store
  simp only [pmStep, View.readAt_eq_ld, harg2.read_unread, harg3.read_unread, harg4.read_unread, harg5.read_unread,
    harg6.read_unread, harg9.read_unread, harg10.read_unread, View.readCov_unit_zero (S := S1x1) _ hz2,
    View.ld_unit_zero (S := S1x256x1536) hz3, View.ld_unit_zero (S := S1x256x3) hz3, View.ld_unit_zero (S := S1x1536x3) hz3,
    View.ld_unit_zero (S := S1x256x1) hz3, View.ld_unit_zero (S := S1x1536x1) hz3, View.ld_unit_zero (S := S1x1) hz2]

/-- At the last point the first output buffer ends at the first scratch cell's final value. -/
theorem oread0_C_5 (c : Dev nD) (i : grid0.Coords) (arg2 : Memref sig .tc .vmem S1x256x1536 .f32) (harg2 : arg2.IsWhole) (arg3 : Memref sig .tc .vmem S1x256x3 .f32) (harg3 : arg3.IsWhole) (arg4 : Memref sig .tc .vmem S1x1536x3 .f32) (harg4 : arg4.IsWhole) (arg5 : Memref sig .tc .vmem S1x256x1 .i32) (harg5 : arg5.IsWhole) (arg6 : Memref sig .tc .vmem S1x1536x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1x256x1536 .f32) (x1 : Vec F S1x256x3 .f32) (x2 : Vec F S1x1536x3 .f32) (x3 : Vec F S1x256x1 .i32) (x4 : Vec F S1x1536x1 .i32) (xs0 xs1 : Vec F S1x1 .f32) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 arg10 harg10 hc0 hc1 x0 x1 x2 x3 x4 xs0 xs1).1) = sqStep x0 x1 x2 x3 x4 xs0 := by
  -- the pieces cover the one cell, so the read-back is the pieces' own closed form, whatever the cell held
  rw [View.read_writes_eq_canon _ _ _ (fun y => View.cover_of_tiledL _ S1x1.size (by sl_kernel_rfl) y)]
  unfold kernelRun0_C; dsimp only; sl_unfold_words
  -- the last store fills the whole cell: its payload is what is left
  rw [View.canon_cons_unit_zero (S := S1x1) hz2]
  -- each whole-buffer load reads the buffer's contents; a load after a whole-cell store of the same run reads that store
  simp only [sqStep, View.readAt_eq_ld, harg2.read_unread, harg3.read_unread, harg4.read_unread, harg5.read_unread,
    harg6.read_unread, harg9.read_unread, harg10.read_unread, View.readCov_unit_zero (S := S1x1) _ hz2,
    View.ld_unit_zero (S := S1x256x1536) hz3, View.ld_unit_zero (S := S1x256x3) hz3, View.ld_unit_zero (S := S1x1536x3) hz3,
    View.ld_unit_zero (S := S1x256x1) hz3, View.ld_unit_zero (S := S1x1536x1) hz3, View.ld_unit_zero (S := S1x1) hz2]

/-- At the last point the second output buffer ends at the second scratch cell's final value. -/
theorem oread0_C_6 (c : Dev nD) (i : grid0.Coords) (arg2 : Memref sig .tc .vmem S1x256x1536 .f32) (harg2 : arg2.IsWhole) (arg3 : Memref sig .tc .vmem S1x256x3 .f32) (harg3 : arg3.IsWhole) (arg4 : Memref sig .tc .vmem S1x1536x3 .f32) (harg4 : arg4.IsWhole) (arg5 : Memref sig .tc .vmem S1x256x1 .i32) (harg5 : arg5.IsWhole) (arg6 : Memref sig .tc .vmem S1x1536x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1x256x1536 .f32) (x1 : Vec F S1x256x3 .f32) (x2 : Vec F S1x1536x3 .f32) (x3 : Vec F S1x256x1 .i32) (x4 : Vec F S1x1536x1 .i32) (xs0 xs1 : Vec F S1x1 .f32) (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 arg10 harg10 hc0 hc1 x0 x1 x2 x3 x4 xs0 xs1).2.1) = pmStep x3 x4 xs1 := by
  -- the pieces cover the one cell, so the read-back is the pieces' own closed form, whatever the cell held
  rw [View.read_writes_eq_canon _ _ _ (fun y => View.cover_of_tiledL _ S1x1.size (by sl_kernel_rfl) y)]
  unfold kernelRun0_C; dsimp only; sl_unfold_words
  -- the last store fills the whole cell: its payload is what is left
  rw [View.canon_cons_unit_zero (S := S1x1) hz2]
  -- each whole-buffer load reads the buffer's contents; a load after a whole-cell store of the same run reads that store
  simp only [pmStep, View.readAt_eq_ld, harg2.read_unread, harg3.read_unread, harg4.read_unread, harg5.read_unread,
    harg6.read_unread, harg9.read_unread, harg10.read_unread, View.readCov_unit_zero (S := S1x1) _ hz2,
    View.ld_unit_zero (S := S1x256x1536) hz3, View.ld_unit_zero (S := S1x256x3) hz3, View.ld_unit_zero (S := S1x1536x3) hz3,
    View.ld_unit_zero (S := S1x256x1) hz3, View.ld_unit_zero (S := S1x1536x1) hz3, View.ld_unit_zero (S := S1x1) hz2]

/-- At the last point the first scratch cell ends at the step from what the point before left. -/
theorem sread0_C_0 (c : Dev nD) (i : grid0.Coords) (arg2 : Memref sig .tc .vmem S1x256x1536 .f32) (harg2 : arg2.IsWhole) (arg3 : Memref sig .tc .vmem S1x256x3 .f32) (harg3 : arg3.IsWhole) (arg4 : Memref sig .tc .vmem S1x1536x3 .f32) (harg4 : arg4.IsWhole) (arg5 : Memref sig .tc .vmem S1x256x1 .i32) (harg5 : arg5.IsWhole) (arg6 : Memref sig .tc .vmem S1x1536x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1x256x1536 .f32) (x1 : Vec F S1x256x3 .f32) (x2 : Vec F S1x1536x3 .f32) (x3 : Vec F S1x256x1 .i32) (x4 : Vec F S1x1536x1 .i32) (xs0 xs1 : Vec F S1x1 .f32) (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 arg10 harg10 hc0 hc1 x0 x1 x2 x3 x4 xs0 xs1).2.2.1) = sqStep x0 x1 x2 x3 x4 xs0 := by
  -- the pieces cover the one cell, so the read-back is the pieces' own closed form, whatever the cell held
  rw [View.read_writes_eq_canon _ _ _ (fun y => View.cover_of_tiledL _ S1x1.size (by sl_kernel_rfl) y)]
  unfold kernelRun0_C; dsimp only; sl_unfold_words
  -- the last store fills the whole cell: its payload is what is left
  rw [View.canon_cons_unit_zero (S := S1x1) hz2]
  -- each whole-buffer load reads the buffer's contents; a load after a whole-cell store of the same run reads that store
  simp only [sqStep, View.readAt_eq_ld, harg2.read_unread, harg3.read_unread, harg4.read_unread, harg5.read_unread,
    harg6.read_unread, harg9.read_unread, harg10.read_unread, View.readCov_unit_zero (S := S1x1) _ hz2,
    View.ld_unit_zero (S := S1x256x1536) hz3, View.ld_unit_zero (S := S1x256x3) hz3, View.ld_unit_zero (S := S1x1536x3) hz3,
    View.ld_unit_zero (S := S1x256x1) hz3, View.ld_unit_zero (S := S1x1536x1) hz3, View.ld_unit_zero (S := S1x1) hz2]

/-- At the last point the second scratch cell ends at the step from what the point before left. -/
theorem sread0_C_1 (c : Dev nD) (i : grid0.Coords) (arg2 : Memref sig .tc .vmem S1x256x1536 .f32) (harg2 : arg2.IsWhole) (arg3 : Memref sig .tc .vmem S1x256x3 .f32) (harg3 : arg3.IsWhole) (arg4 : Memref sig .tc .vmem S1x1536x3 .f32) (harg4 : arg4.IsWhole) (arg5 : Memref sig .tc .vmem S1x256x1 .i32) (harg5 : arg5.IsWhole) (arg6 : Memref sig .tc .vmem S1x1536x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1x256x1536 .f32) (x1 : Vec F S1x256x3 .f32) (x2 : Vec F S1x1536x3 .f32) (x3 : Vec F S1x256x1 .i32) (x4 : Vec F S1x1536x1 .i32) (xs0 xs1 : Vec F S1x1 .f32) (f : arg10.view.ty.Contents (Elt F)) :
    arg10.view.read (Elt F) (arg10.view.writes (Elt F) f (kernelRun0_C c i arg2 harg2 arg3 harg3 arg4 harg4 arg5 harg5 arg6 harg6 arg7 harg7 arg8 harg8 arg9 harg9 arg10 harg10 hc0 hc1 x0 x1 x2 x3 x4 xs0 xs1).2.2.2.1) = pmStep x3 x4 xs1 := by
  -- the pieces cover the one cell, so the read-back is the pieces' own closed form, whatever the cell held
  rw [View.read_writes_eq_canon _ _ _ (fun y => View.cover_of_tiledL _ S1x1.size (by sl_kernel_rfl) y)]
  unfold kernelRun0_C; dsimp only; sl_unfold_words
  -- the last store fills the whole cell: its payload is what is left
  rw [View.canon_cons_unit_zero (S := S1x1) hz2]
  -- each whole-buffer load reads the buffer's contents; a load after a whole-cell store of the same run reads that store
  simp only [pmStep, View.readAt_eq_ld, harg2.read_unread, harg3.read_unread, harg4.read_unread, harg5.read_unread,
    harg6.read_unread, harg9.read_unread, harg10.read_unread, View.readCov_unit_zero (S := S1x1) _ hz2,
    View.ld_unit_zero (S := S1x256x1536) hz3, View.ld_unit_zero (S := S1x256x3) hz3, View.ld_unit_zero (S := S1x1536x3) hz3,
    View.ld_unit_zero (S := S1x256x1) hz3, View.ld_unit_zero (S := S1x1536x1) hz3, View.ld_unit_zero (S := S1x1) hz2]

end Cert.KernelIdeal.Hand

end
-- ==== Proof.KIBody.lean ====
/-
  The body obligation: at every grid point, from the two running sums as the point before left them (anything at the
  first point, which resets them) and each window's staging buffer at what the pipeline put there, the kernel body
  runs to the two running sums advanced by this point's tile, every input buffer as it was, and — at the last point
  only — the two output buffers holding the two sums.
-/
import proofs.«165863_j34926674051539_1_alg».proof.Proof.KIDat
import proofs.«165863_j34926674051539_1_alg».proof.Proof.KIPieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each input window's buffer: its block, fetched there or not -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The running sums at a point, as one step -/

/-- At the first point the two cells are one step from the zero pattern. -/
theorem accAt_first_fst (c : Dev nD) (t : Fin cfg0.N) (h : t.val = 0) :
    (accAt m c t.val t.isLt).1 = sqStep (xb0 m c t) (xb1 m c t) (xb2 m c t) (xb3 m c t) (xb4 m c t) (k0_pay2 (F := F)) := by
  obtain ⟨n, hn⟩ := t
  dsimp only at h
  subst h
  rfl
theorem accAt_first_snd (c : Dev nD) (t : Fin cfg0.N) (h : t.val = 0) :
    (accAt m c t.val t.isLt).2 = pmStep (xb3 m c t) (xb4 m c t) (k0_pay3 (F := F)) := by
  obtain ⟨n, hn⟩ := t
  dsimp only at h
  subst h
  rfl

/-- At any later point they are one step from what the point before left. -/
theorem accAt_pos_fst (c : Dev nD) (t : Fin cfg0.N) (h : t.val ≠ 0) :
    (accAt m c t.val t.isLt).1 = sqStep (xb0 m c t) (xb1 m c t) (xb2 m c t) (xb3 m c t) (xb4 m c t)
      (accAt m c (t.val - 1) (Nat.lt_of_le_of_lt (Nat.sub_le _ _) t.isLt)).1 := by
  obtain ⟨n, hn⟩ := t
  cases n with
  | zero => exact absurd rfl h
  | succ n => rfl
theorem accAt_pos_snd (c : Dev nD) (t : Fin cfg0.N) (h : t.val ≠ 0) :
    (accAt m c t.val t.isLt).2 = pmStep (xb3 m c t) (xb4 m c t)
      (accAt m c (t.val - 1) (Nat.lt_of_le_of_lt (Nat.sub_le _ _) t.isLt)).2 := by
  obtain ⟨n, hn⟩ := t
  cases n with
  | zero => exact absurd rfl h
  | succ n => rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the closed forms of the two conditions say which of
    the three cases the point is in; the invariant hands the body the two scratch cells (at anything at the first
    point, at the running sums afterwards) and takes them back one step on; the outputs are idle and handed back
    untouched except at the last point, which leaves the two sums in them; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Phi m c (t.val + 1) t.isLt from rfl, Phi_succ]
  have hN : t.val < 96 := lt_of_lt_of_eq t.isLt (show cfg0.N = 96 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val = 0
  · -- the first point
    have hc0 : cond0_0 (grid0.coords t) := (hcond0_0 t).mpr h0
    have hc1 : ¬cond0_1 (grid0.coords t) := fun h => by have := (hcond0_1 t).mp h; omega
    rw [Dat.leavesExact_idle (dats m 0 c) 5 t (idleAt0_5 t hc1) (noFlush0_5 t hc1)]
    rw [Dat.leavesExact_idle (dats m 0 c) 6 t (idleAt0_6 t hc1) (noFlush0_6 t hc1)]
    rw [Phi_castSucc m c t, Phi_zero m c _ _ h0, accAt_first_fst m c t h0, accAt_first_snd m c t h0]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ hc0 hc1 (xb0 m c t) (xb1 m c t) (xb2 m c t) (xb3 m c t) (xb4 m c t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%es0, HS0⟩, ⟨%es1, HS1⟩⟩
    isplitl [HS0 HS1]
    · isplitl [HS0]
      · unfold owns; iexists _; isplitr
        swap; · iexact HS0
        ipureintro; exact sread0_A_0 _ _ _ _ _ _ _ _ _ _ _ _ _ _ _ _ _ _ _ _ _ _ _ _ _ _ _ _
      · unfold owns; iexists _; isplitr
        swap; · iexact HS1
        ipureintro; exact sread0_A_1 _ _ _ _ _ _ _ _ _ _ _ _ _ _ _ _ _ _ _ _ _ _ _ _ _ _ _ _
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 95
    · -- the last point
      have hc0 : ¬cond0_0 (grid0.coords t) := fun h => h0 ((hcond0_0 t).mp h)
      have hc1 : cond0_1 (grid0.coords t) := (hcond0_1 t).mpr h1
      rw [show (dats m 0 c).leavesExact 5 t = owns (c : Thread nD τ) (ms0_5 t) fullShare ((dats m 0 c).after 5 t) from by
        unfold Dat.leavesExact; rw [liveAt0_5 t hc1], after0_5]
      rw [show (dats m 0 c).leavesExact 6 t = owns (c : Thread nD τ) (ms0_6 t) fullShare ((dats m 0 c).after 6 t) from by
        unfold Dat.leavesExact; rw [liveAt0_6 t hc1], after0_6]
      rw [Phi_castSucc m c t, Phi_pos m c _ _ h0, accAt_pos_fst m c t h0, accAt_pos_snd m c t h0]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ hc0 hc1 (xb0 m c t) (xb1 m c t) (xb2 m c t) (xb3 m c t) (xb4 m c t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1]
      · isplitl [HS0]
        · unfold owns; iexists _; isplitr
          swap; · iexact HS0
          ipureintro; exact sread0_C_0 _ _ _ _ _ _ _ _ _ _ _ _ _ _ _ _ _ _ _ _ _ _ _ _ _ _ _ _ _ _
        · unfold owns; iexists _; isplitr
          swap; · iexact HS1
          ipureintro; exact sread0_C_1 _ _ _ _ _ _ _ _ _ _ _ _ _ _ _ _ _ _ _ _ _ _ _ _ _ _ _ _ _ _
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact oread0_C_5 _ _ _ _ _ _ _ _ _ _ _ _ _ _ _ _ _ _ _ _ _ _ _ _ _ _ _ _ _ _
      · unfold owns; iexists _; isplitr
        swap; · iexact H6
        ipureintro; exact oread0_C_6 _ _ _ _ _ _ _ _ _ _ _ _ _ _ _ _ _ _ _ _ _ _ _ _ _ _ _ _ _ _
    · -- a middle point
      have hc0 : ¬cond0_0 (grid0.coords t) := fun h => h0 ((hcond0_0 t).mp h)
      have hc1 : ¬cond0_1 (grid0.coords t) := fun h => h1 ((hcond0_1 t).mp h)
      rw [Dat.leavesExact_idle (dats m 0 c) 5 t (idleAt0_5 t hc1) (noFlush0_5 t hc1)]
      rw [Dat.leavesExact_idle (dats m 0 c) 6 t (idleAt0_6 t hc1) (noFlush0_6 t hc1)]
      rw [Phi_castSucc m c t, Phi_pos m c _ _ h0, accAt_pos_fst m c t h0, accAt_pos_snd m c t h0]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ hc0 hc1 (xb0 m c t) (xb1 m c t) (xb2 m c t) (xb3 m c t) (xb4 m c t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1]
      · isplitl [HS0]
        · unfold owns; iexists _; isplitr
          swap; · iexact HS0
          ipureintro; exact sread0_B_0 _ _ _ _ _ _ _ _ _ _ _ _ _ _ _ _ _ _ _ _ _ _ _ _ _ _ _ _ _ _
        · unfold owns; iexists _; isplitr
          swap; · iexact HS1
          ipureintro; exact sread0_B_1 _ _ _ _ _ _ _ _ _ _ _ _ _ _ _ _ _ _ _ _ _ _ _ _ _ _ _ _ _ _
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation for the proof data `dats`, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Spec.lean ====
/-
  The mathematics both programs compute, index by index, on the extended reals.

  From coordinates `T` (24576 rows of 3), a 0/1 mask `Mk` (24576 rows of 1) and predicted distance maps `X`
  (16 × 1536 × 1536): row `1536·b + a` is atom `a` of protein `b`. For atoms `i`, `j` of one protein,
  `d2 = |t_i|² + |t_j|² − 2·⟨t_i, t_j⟩`, the pairwise distance `pd` is `√d2` where `d2 > 0` and `0` elsewhere, the pair
  mask `pm` is the product of the two atoms' masks, and the loss term is `(pm·X − pm·pd)²`. The result is
  `(Σ terms / N) · (Σ pm / N)` with `N = 16·1536·1536`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨3, ![16, 1536, 1536]⟩
abbrev ST : Shape := ⟨2, ![24576, 3]⟩
abbrev SM : Shape := ⟨2, ![24576, 1]⟩

variable (X : SX.Idx → EReal) (T : ST.Idx → EReal) (Mk : SM.Idx → BitVec 32)

/-- Atom `a` of protein `b` is row `1536·b + a` of the flat arrays. -/
def row (b : Fin 16) (a : Fin 1536) : Fin 24576 := ⟨1536 * b.val + a.val, by omega⟩

/-- Coordinate `d` of atom `a` of protein `b`. -/
def t (b : Fin 16) (a : Fin 1536) (d : Fin 3) : EReal := T (ix2 (row b a) d)

/-- The mask of atom `a` of protein `b`, as a number. -/
def mk (b : Fin 16) (a : Fin 1536) : EReal := FloatOps.sitofp (F := Ideal) .f32 (Mk (ix2 (row b a) (0 : Fin 1)))

/-- The squared norm of an atom's coordinates (a sum from zero). -/
def sqn (b : Fin 16) (a : Fin 1536) : EReal := Ideal.ofBits .f32 0x00000000#32 + ∑ d : Fin 3, t T b a d * t T b a d

/-- The inner product of two atoms' coordinates. -/
def gram (b : Fin 16) (i j : Fin 1536) : EReal := ∑ d : Fin 3, t T b i d * t T b j d

/-- The squared distance by the polarisation identity; the factor is the float pattern of two. -/
def d2 (b : Fin 16) (i j : Fin 1536) : EReal := (sqn T b i + sqn T b j) - Ideal.ofBits .f32 0x40000000#32 * gram T b i j

/-- The distance: the root where the squared distance is positive, zero elsewhere. -/
def pd (b : Fin 16) (i j : Fin 1536) : EReal := if 0 < d2 T b i j then Ideal.sqrt (d2 T b i j) else 0

/-- The pair mask. -/
def pm (b : Fin 16) (i j : Fin 1536) : EReal := mk Mk b i * mk Mk b j

/-- One loss term. -/
def term (b : Fin 16) (i j : Fin 1536) : EReal :=
  (pm Mk b i j * X (ix3 b i j) - pm Mk b i j * pd T b i j) * (pm Mk b i j * X (ix3 b i j) - pm Mk b i j * pd T b i j)

/-- All loss terms summed, and all pair masks summed. -/
def sumTerm : EReal := ∑ b : Fin 16, ∑ i : Fin 1536, ∑ j : Fin 1536, term X T Mk b i j
def sumPm : EReal := ∑ b : Fin 16, ∑ i : Fin 1536, ∑ j : Fin 1536, pm Mk b i j

/-- The count `16·1536·1536` as the float pattern both programs divide by. -/
def cnt : EReal := Ideal.ofBits .f32 0x4C100000#32

/-- The value: the mean loss term times the mean pair mask. -/
def result : EReal := Ideal.div (sumTerm X T Mk) cnt * Ideal.div (sumPm Mk) cnt

/-! ## One tile

Grid point `t` (of 96, protein-major) handles protein `t / 6` and the 256 atoms `256·(t % 6) …` as rows, against all 1536
atoms of that protein as columns. -/

/-- The protein of a grid point. -/
def bOf (t : Fin 96) : Fin 16 := ⟨t.val / 6, by omega⟩
/-- Row `r` of a grid point's tile, as an atom of its protein. -/
def iOf (t : Fin 96) (r : Fin 256) : Fin 1536 := ⟨256 * (t.val % 6) + r.val, by omega⟩

/-- The loss terms of one tile summed, and its pair masks summed. -/
def tileTerm (t : Fin 96) : EReal := ∑ r : Fin 256, ∑ j : Fin 1536, term X T Mk (bOf t) (iOf t r) j
def tilePm (t : Fin 96) : EReal := ∑ r : Fin 256, ∑ j : Fin 1536, pm Mk (bOf t) (iOf t r) j

end Cert.Spec

end
-- ==== Proof.KIStep.lean ====
/-
  One grid point's contribution, at the exact extended reals: the first scratch cell after a point is the old cell
  plus the sum of the tile's loss terms, the second the old cell plus the sum of the tile's pair masks, the tile's
  blocks read off the argument arrays (the coordinates and the mask through their reshapes).

  The road: each layout operation of the body read at an index written by coordinates; each sum over one axis as a
  sum over that axis's coordinates; each of the body's values at `(r, j)` — row atom `r`, column atom `j` of the tile —
  as the specification's formula of the blocks' entries; each block's entry as the argument array's entry at protein
  `t / 6`, row atom `256·(t % 6) + r`, column atom `j`, the flat row of an atom being `1536·protein + atom`.
-/
import proofs.«165863_j34926674051539_1_alg».proof.Proof.KIAcc
import proofs.«165863_j34926674051539_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx Idealize.ShloMosaic.Tactic
open Idealize.SL Idealize.SL.Sem
open Cert.KernelIdeal Cert.KernelIdeal.Gen

variable (m : (ℓ : Loc nD τ sig) → Buf (Elt Ideal) ℓ)

/-- The three argument arrays the value depends on, at their literal types. -/
abbrev argX (c : Dev nD) : Cert.Spec.SX.Idx → EReal := m ((c.tc : Thread nD τ).loc main_arg0)
abbrev argT (c : Dev nD) : Cert.Spec.ST.Idx → EReal := m ((c.tc : Thread nD τ).loc main_arg1)
abbrev argM (c : Dev nD) : Cert.Spec.SM.Idx → BitVec 32 := m ((c.tc : Thread nD τ).loc main_arg2)

/-- A grid point as a number below 96. -/
abbrev pt (t : Fin cfg0.N) : Fin 96 := ⟨t.val, lt_of_lt_of_eq t.isLt N_0⟩

open scoped BigOperators

/-! ## Two layout forms of a kept unit column -/

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sums over one axis, with the inserted index written by coordinates -/

theorem lift_256x3 (h : S256x3.Reduces [1] S256) (r : Fin 256) (k : Fin 3) : h.lift (ix1 r) k = ix2 r k := by
  funext c; match c with | ⟨0, _⟩ => exact Fin.ext rfl | ⟨1, _⟩ => exact Fin.ext rfl
theorem lift_3x1536 (h : S3x1536.Reduces [0] S1536) (a : Fin 1536) (k : Fin 3) : h.lift (ix1 a) k = ix2 k a := by
  funext c; match c with | ⟨0, _⟩ => exact Fin.ext rfl | ⟨1, _⟩ => exact Fin.ext rfl
theorem lift_256x1536 (h : S256x1536.Reduces [1] S256) (r : Fin 256) (k : Fin 1536) : h.lift (ix1 r) k = ix2 r k := by
  funext c; match c with | ⟨0, _⟩ => exact Fin.ext rfl | ⟨1, _⟩ => exact Fin.ext rfl
theorem lift_256x1 (h : S256x1.Reduces [0] S1) (u : Fin 1) (k : Fin 256) : h.lift (ix1 u) k = ix2 k u := by
  funext c; match c with | ⟨0, _⟩ => exact Fin.ext rfl | ⟨1, _⟩ => exact Fin.ext rfl

/-- A row's sum over its three lanes. -/
theorem sum_256x3 (src : FVec Ideal S256x3 .f32) (h : S256x3.Reduces [1] S256) (hφ : FKind.Formats .f32)
    (hacc : (0x00000000#32 : BitVec 32) = FKind.add.neutral .f32 hφ) (r : Fin 256) :
    multiReduction .add [1] S256 src 0x00000000#32 h hφ hacc (ix1 r) = ∑ d : Fin 3, src (ix2 r d) :=
  (Ideal.multiReduction_add_single src _ h hφ hacc (ix1 r)).trans
    (Finset.sum_congr rfl fun d _ => congrArg src (lift_256x3 h r d))
/-- A column's sum over its three rows. -/
theorem sum_3x1536 (src : FVec Ideal S3x1536 .f32) (h : S3x1536.Reduces [0] S1536) (hφ : FKind.Formats .f32)
    (hacc : (0x00000000#32 : BitVec 32) = FKind.add.neutral .f32 hφ) (a : Fin 1536) :
    multiReduction .add [0] S1536 src 0x00000000#32 h hφ hacc (ix1 a) = ∑ d : Fin 3, src (ix2 d a) :=
  (Ideal.multiReduction_add_single src _ h hφ hacc (ix1 a)).trans
    (Finset.sum_congr rfl fun d _ => congrArg src (lift_3x1536 h a d))
/-- A tile row's sum over its 1536 columns. -/
theorem sum_256x1536 (src : FVec Ideal S256x1536 .f32) (h : S256x1536.Reduces [1] S256) (hφ : FKind.Formats .f32)
    (hacc : (0x00000000#32 : BitVec 32) = FKind.add.neutral .f32 hφ) (r : Fin 256) :
    multiReduction .add [1] S256 src 0x00000000#32 h hφ hacc (ix1 r) = ∑ j : Fin 1536, src (ix2 r j) :=
  (Ideal.multiReduction_add_single src _ h hφ hacc (ix1 r)).trans
    (Finset.sum_congr rfl fun j _ => congrArg src (lift_256x1536 h r j))
/-- A column's sum over its 256 rows. -/
theorem sum_256x1 (src : FVec Ideal S256x1 .f32) (h : S256x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ r : Fin 256, src (ix2 r u) :=
  (Ideal.multiReduction_add_single src _ h hφ hacc (ix1 u)).trans
    (Finset.sum_congr rfl fun r _ => congrArg src (lift_256x1 h u r))

/-- The sum of a whole tile, rows then columns, as the body takes it: each row summed over its columns, the row sums
    kept as a column, the column summed, the one number kept as a `[1, 1]` cell. -/
theorem tileSum (src : FVec Ideal S256x1536 .f32) (h1 : S256x1536.Reduces [1] S256) (h2 : S256.ShapeCasts S256x1)
    (h3 : S256x1.Reduces [0] S1) (h4 : S1.ShapeCasts S1x1) (hφ : FKind.Formats .f32)
    (hacc : (0x00000000#32 : BitVec 32) = FKind.add.neutral .f32 hφ) (u v : Fin 1) :
    shapeCast S1x1 (multiReduction .add [0] S1 (shapeCast S256x1 (multiReduction .add [1] S256 src 0x00000000#32 h1 hφ hacc) h2)
        0x00000000#32 h3 hφ hacc) h4 (ix2 u v)
      = ∑ r : Fin 256, ∑ j : Fin 1536, src (ix2 r j) := by
  refine (shapeCast_a_1a_apply _ h4 u v).trans ?_
  refine (sum_256x1 _ h3 hφ hacc v).trans ?_
  refine Finset.sum_congr rfl fun r _ => ?_
  refine (shapeCast_a_a1_apply _ h2 r v).trans ?_
  exact sum_256x1536 src h1 hφ hacc r

/-! ## The mask path -/

/-- The row masks as numbers. -/
theorem pay5_apply (x3 : Vec Ideal S1x256x1 .i32) (r : Fin 256) (z : Fin 1) :
    k0_pay5 (F := Ideal) x3 (ix2 r z) = FloatOps.sitofp (F := Ideal) .f32 (x3 (ix3 (0 : Fin 1) r z)) :=
  congrArg (FloatOps.sitofp (F := Ideal) .f32) (shapeCast_1ab_ab_apply x3 _ r z)

/-- The column masks as numbers, laid along a row. -/
theorem pay7_apply (x4 : Vec Ideal S1x1536x1 .i32) (z : Fin 1) (a : Fin 1536) :
    k0_pay7 (F := Ideal) x4 (ix2 z a) = FloatOps.sitofp (F := Ideal) .f32 (x4 (ix3 (0 : Fin 1) a z)) := by
  unfold k0_pay7
  refine (transpose_ix2_apply (sitofp (F := Ideal) .f32 (shapeCast S1536x1 x4 shapeCasts_S1x1536x1_S1536x1)) _ z a).trans ?_
  exact congrArg (FloatOps.sitofp (F := Ideal) .f32) (shapeCast_1ab_ab_apply x4 _ a z)

/-- The pair mask at `(r, j)`: the row's mask times the column's. -/
theorem pay11_apply (v11 : FVec Ideal S256x1 .f32) (v16 : FVec Ideal S1x1536 .f32) (r : Fin 256) (j : Fin 1536) :
    k0_pay11 v11 v16 (ix2 r j) = v11 (ix2 r (0 : Fin 1)) * v16 (ix2 (0 : Fin 1) j) := by
  show broadcastTo S256x1536 v11 _ (ix2 r j) * broadcastTo S256x1536 v16 _ (ix2 r j) = _
  rw [broadcastTo_a1_ab_apply, broadcastTo_1b_ab_apply]

/-- The second cell after a point: the old cell plus the sum of the tile's pair masks. -/
theorem pay13_apply (v11 : FVec Ideal S256x1 .f32) (v16 : FVec Ideal S1x1536 .f32) (a : Vec Ideal S1x1 .f32) (u v : Fin 1) :
    k0_pay13 v11 v16 a (ix2 u v)
      = a (ix2 u v) + ∑ r : Fin 256, ∑ j : Fin 1536, v11 (ix2 r (0 : Fin 1)) * v16 (ix2 (0 : Fin 1) j) := by
  refine congrArg (a (ix2 u v) + ·) ?_
  refine (tileSum (k0_pay11 v11 v16) _ _ _ _ _ _ u v).trans ?_
  exact Finset.sum_congr rfl fun r _ => Finset.sum_congr rfl fun j _ => pay11_apply v11 v16 r j

/-! ## The coordinates path -/

/-- The row atoms' coordinates, the leading unit axis dropped. -/
theorem pay4_apply (x1 : Vec Ideal S1x256x3 .f32) (r : Fin 256) (d : Fin 3) :
    k0_pay4 (F := Ideal) x1 (ix2 r d) = x1 (ix3 (0 : Fin 1) r d) :=
  shapeCast_1ab_ab_apply x1 _ r d

/-- The column atoms' coordinates, laid lane by row. -/
theorem pay6_apply (x2 : Vec Ideal S1x1536x3 .f32) (d : Fin 3) (a : Fin 1536) :
    k0_pay6 (F := Ideal) x2 (ix2 d a) = x2 (ix3 (0 : Fin 1) a d) := by
  unfold k0_pay6
  refine (transpose_ix2_apply (shapeCast S1536x3 x2 shapeCasts_S1x1536x3_S1536x3) _ d a).trans ?_
  exact shapeCast_1ab_ab_apply x2 _ a d

/-- A row atom's squared norm. -/
theorem pay8_apply (x1 : Vec Ideal S1x256x3 .f32) (r : Fin 256) (z : Fin 1) :
    k0_pay8 (F := Ideal) x1 (ix2 r z) = ∑ d : Fin 3, x1 (ix3 (0 : Fin 1) r d) * x1 (ix3 (0 : Fin 1) r d) := by
  unfold k0_pay8
  refine (shapeCast_a_a1_apply (multiReduction .add [1] S256 (mulf (k0_pay4 x1) (k0_pay4 x1)) 0x00000000#32
    reduces_S256x3_S256 (.inl rfl) rfl) _ r z).trans ?_
  refine (sum_256x3 (mulf (k0_pay4 x1) (k0_pay4 x1)) _ _ _ r).trans ?_
  refine Finset.sum_congr rfl fun d _ => ?_
  show k0_pay4 x1 (ix2 r d) * k0_pay4 x1 (ix2 r d) = _
  rw [pay4_apply x1 r d]

/-- A column atom's squared norm. -/
theorem pay9_apply (x2 : Vec Ideal S1x1536x3 .f32) (z : Fin 1) (a : Fin 1536) :
    k0_pay9 (F := Ideal) x2 (ix2 z a) = ∑ d : Fin 3, x2 (ix3 (0 : Fin 1) a d) * x2 (ix3 (0 : Fin 1) a d) := by
  unfold k0_pay9
  refine (shapeCast_a_1a_apply (multiReduction .add [0] S1536 (mulf (k0_pay6 x2) (k0_pay6 x2)) 0x00000000#32
    reduces_S3x1536_S1536 (.inl rfl) rfl) _ z a).trans ?_
  refine (sum_3x1536 (mulf (k0_pay6 x2) (k0_pay6 x2)) _ _ _ a).trans ?_
  refine Finset.sum_congr rfl fun d _ => ?_
  show k0_pay6 x2 (ix2 d a) * k0_pay6 x2 (ix2 d a) = _
  rw [pay6_apply x2 d a]

/-- Lane `k` of the row atoms' coordinates, spread along the tile's rows. -/
theorem rowLane (x1 : Vec Ideal S1x256x3 .f32) (o : ℕ) (k : Fin 3) (hk : k.val = o) (h : S256x3.Slices ![0, o] S256x1)
    (hb : S256x1.Broadcasts S256x1536) (r : Fin 256) (a : Fin 1536) :
    broadcastTo S256x1536 (extractStridedSlice S256x1 ![0, o] (k0_pay4 (F := Ideal) x1) h) hb (ix2 r a) = x1 (ix3 (0 : Fin 1) r k) := by
  refine (broadcastTo_a1_ab_apply _ hb r a).trans ?_
  refine (slice2_axis1_apply o (k0_pay4 (F := Ideal) x1) h r (0 : Fin 1) k (by show k.val = o + 0; omega)).trans ?_
  exact pay4_apply x1 r k

/-- Lane `k` of the column atoms' coordinates, spread along the tile's columns. -/
theorem colLane (x2 : Vec Ideal S1x1536x3 .f32) (o : ℕ) (k : Fin 3) (hk : k.val = o) (h : S3x1536.Slices ![o, 0] S1x1536)
    (hb : S1x1536.Broadcasts S256x1536) (r : Fin 256) (a : Fin 1536) :
    broadcastTo S256x1536 (extractStridedSlice S1x1536 ![o, 0] (k0_pay6 (F := Ideal) x2) h) hb (ix2 r a) = x2 (ix3 (0 : Fin 1) a k) := by
  refine (broadcastTo_1b_ab_apply _ hb r a).trans ?_
  refine (slice2_axis0_apply o (k0_pay6 (F := Ideal) x2) h (0 : Fin 1) a k (by show k.val = o + 0; omega)).trans ?_
  exact pay6_apply x2 k a

/-- The inner product of a row atom's and a column atom's coordinates: three lane products added. -/
theorem pay10_apply (x1 : Vec Ideal S1x256x3 .f32) (x2 : Vec Ideal S1x1536x3 .f32) (r : Fin 256) (a : Fin 1536) :
    k0_pay10 (F := Ideal) x1 x2 (ix2 r a) = ∑ d : Fin 3, x1 (ix3 (0 : Fin 1) r d) * x2 (ix3 (0 : Fin 1) a d) := by
  rw [Fin.sum_univ_three]
  exact congrArg₂ (· + ·)
    (congrArg₂ (· + ·)
      (congrArg₂ (· * ·) (rowLane x1 0 0 rfl _ _ r a) (colLane x2 0 0 rfl _ _ r a))
      (congrArg₂ (· * ·) (rowLane x1 1 1 rfl _ _ r a) (colLane x2 1 1 rfl _ _ r a)))
    (congrArg₂ (· * ·) (rowLane x1 2 2 rfl _ _ r a) (colLane x2 2 2 rfl _ _ r a))

/-! ## One pair's loss term -/

/-- The loss term of one pair from its two masks, its predicted distance, the two squared norms and the inner
    product: the squared distance by polarisation, its root where it is positive and zero elsewhere, and the square
    of masked prediction minus masked distance. -/
def cellS (mi mj x si sj g : EReal) : EReal :=
  (mi * mj * x - mi * mj * (if 0 < (si + sj) - Ideal.ofBits .f32 0x40000000#32 * g
      then Ideal.sqrt ((si + sj) - Ideal.ofBits .f32 0x40000000#32 * g) else 0))
    * (mi * mj * x - mi * mj * (if 0 < (si + sj) - Ideal.ofBits .f32 0x40000000#32 * g
      then Ideal.sqrt ((si + sj) - Ideal.ofBits .f32 0x40000000#32 * g) else 0))

/-- The body's two selects on "the squared distance is positive" are the `if`: the root is taken of the squared
    distance where that is positive, of a dead constant elsewhere, and is then replaced by zero there. -/
theorem pd_select (d2 : EReal) :
    Scalar.select (Ideal.cmp .ogt d2 (Ideal.ofBits .f32 0x00000000#32))
        (Ideal.sqrt (Scalar.select (Ideal.cmp .ogt d2 (Ideal.ofBits .f32 0x00000000#32)) d2 (Ideal.ofBits .f32 0x3F800000#32)))
        (Ideal.ofBits .f32 0x00000000#32)
      = if 0 < d2 then Ideal.sqrt d2 else 0 := by
  rw [Ideal.ofBits_zero_f32]
  by_cases h : 0 < d2
  · have hc : Ideal.cmp .ogt d2 0 = 1#1 := by simp [Ideal.cmp, h]
    simp only [hc, select_one, if_pos h]
  · have hc : Ideal.cmp .ogt d2 0 = 0#1 := by simp [Ideal.cmp, h]
    simp only [hc, select_zero, if_neg h]

/-- The body's arithmetic at one pair, on numbers. -/
def cellK (p x si sj g : EReal) : EReal :=
  (p * x - p * Scalar.select (Ideal.cmp .ogt ((si + sj) - Ideal.ofBits .f32 0x40000000#32 * g) (Ideal.ofBits .f32 0x00000000#32))
      (Ideal.sqrt (Scalar.select (Ideal.cmp .ogt ((si + sj) - Ideal.ofBits .f32 0x40000000#32 * g) (Ideal.ofBits .f32 0x00000000#32))
        ((si + sj) - Ideal.ofBits .f32 0x40000000#32 * g) (Ideal.ofBits .f32 0x3F800000#32)))
      (Ideal.ofBits .f32 0x00000000#32))
    * (p * x - p * Scalar.select (Ideal.cmp .ogt ((si + sj) - Ideal.ofBits .f32 0x40000000#32 * g) (Ideal.ofBits .f32 0x00000000#32))
      (Ideal.sqrt (Scalar.select (Ideal.cmp .ogt ((si + sj) - Ideal.ofBits .f32 0x40000000#32 * g) (Ideal.ofBits .f32 0x00000000#32))
        ((si + sj) - Ideal.ofBits .f32 0x40000000#32 * g) (Ideal.ofBits .f32 0x3F800000#32)))
      (Ideal.ofBits .f32 0x00000000#32))

theorem cellK_eq (mi mj x si sj g : EReal) : cellK (mi * mj) x si sj g = cellS mi mj x si sj g := by
  unfold cellK cellS
  rw [pd_select]

/-- The first cell after a point, over any values of the body's five intermediate vectors: the old cell plus the
    sum over the tile of the pairs' loss terms. -/
theorem pay12_apply (v11 : FVec Ideal S256x1 .f32) (v16 : FVec Ideal S1x1536 .f32) (v19 : FVec Ideal S256x1 .f32)
    (v22 : FVec Ideal S1x1536 .f32) (v39 : FVec Ideal S256x1536 .f32) (x0 : Vec Ideal S1x256x1536 .f32)
    (a : Vec Ideal S1x1 .f32) (u v : Fin 1) :
    k0_pay12 v11 v16 v19 v22 v39 x0 a (ix2 u v)
      = a (ix2 u v) + ∑ r : Fin 256, ∑ j : Fin 1536,
          cellS (v11 (ix2 r (0 : Fin 1))) (v16 (ix2 (0 : Fin 1) j)) (x0 (ix3 (0 : Fin 1) r j))
            (v19 (ix2 r (0 : Fin 1))) (v22 (ix2 (0 : Fin 1) j)) (v39 (ix2 r j)) := by
  unfold k0_pay12
  refine (congrFun (shapeCast_self _ _) (ix2 u v)).trans ?_
  refine congrArg (a (ix2 u v) + ·) ?_
  refine (tileSum _ _ _ _ _ _ _ u v).trans ?_
  refine Finset.sum_congr rfl fun r _ => Finset.sum_congr rfl fun j _ => ?_
  show cellK (k0_pay11 v11 v16 (ix2 r j)) (shapeCast S256x1536 x0 shapeCasts_S1x256x1536_S256x1536 (ix2 r j))
      (broadcastTo S256x1536 v19 broadcasts_S256x1_S256x1536 (ix2 r j))
      (broadcastTo S256x1536 v22 broadcasts_S1x1536_S256x1536 (ix2 r j)) (v39 (ix2 r j)) = _
  rw [pay11_apply v11 v16 r j, shapeCast_1ab_ab_apply x0 _ r j, broadcastTo_a1_ab_apply v19 _ r j,
    broadcastTo_1b_ab_apply v22 _ r j, cellK_eq]

/-! ## Where a point's blocks sit -/

/-- The windows' block indices over the grid: point `t` is protein `t / 6`, row tile `t % 6`; the row windows move with
    both, the column windows with the protein only. -/
theorem idx_facts : ∀ t : Fin cfg0.N,
    (win0_0.index t (0 : Fin 3) = t.val / 6 ∧ win0_0.index t (1 : Fin 3) = t.val % 6 ∧ win0_0.index t (2 : Fin 3) = 0)
    ∧ (win0_1.index t (0 : Fin 3) = t.val / 6 ∧ win0_1.index t (1 : Fin 3) = t.val % 6 ∧ win0_1.index t (2 : Fin 3) = 0)
    ∧ (win0_2.index t (0 : Fin 3) = t.val / 6 ∧ win0_2.index t (1 : Fin 3) = 0 ∧ win0_2.index t (2 : Fin 3) = 0)
    ∧ (win0_3.index t (0 : Fin 3) = t.val / 6 ∧ win0_3.index t (1 : Fin 3) = t.val % 6 ∧ win0_3.index t (2 : Fin 3) = 0)
    ∧ (win0_4.index t (0 : Fin 3) = t.val / 6 ∧ win0_4.index t (1 : Fin 3) = 0 ∧ win0_4.index t (2 : Fin 3) = 0) :=
  (by decide +kernel : ∀ t : Fin grid0.N, _)

/-! ## The two reshaped arrays as the region finds them -/

/-- The coordinates as the region finds them: the flat array viewed `[16, 1536, 3]`. -/
theorem V_main_v0 (c : Dev nD) :
    (V m c main_v0 : S16x1536x3.Idx → EReal) = shapeCast S16x1536x3 (argT m c) shapeCasts_S24576x3_S16x1536x3 := by
  dsimp only [V, V0, hostOps0]
  simp only [List.flatten_cons, List.flatten_nil, List.append_nil]
  after_results
  rfl

/-- The mask as the region finds it: the flat array viewed `[16, 1536, 1]`. -/
theorem V_main_v1 (c : Dev nD) :
    (V m c main_v1 : S16x1536x1.Idx → BitVec 32) = shapeCast S16x1536x1 (argM m c) shapeCasts_S24576x1_S16x1536x1 := by
  dsimp only [V, V0, hostOps0]
  simp only [List.flatten_cons, List.flatten_nil, List.append_nil]
  after_results
  rfl

/-! ## The reshapes read at an index -/

/-- The flat coordinates viewed `[16, 1536, 3]`, at `(b, a, d)`: row `1536·b + a`, lane `d`. -/
theorem reshapeT_apply (T : Cert.Spec.ST.Idx → EReal) (h : S24576x3.ShapeCasts S16x1536x3) (i : S16x1536x3.Idx)
    (b : Fin 16) (a : Fin 1536) (d : Fin 3) (h0 : (i 0).val = b.val) (h1 : (i 1).val = a.val) (h2 : (i 2).val = d.val) :
    shapeCast S16x1536x3 T h i = T (ix2 (Cert.Spec.row b a) d) :=
  shapeCast_apply T h i _ (by
    rw [Shape.rowMajor_val_two, Shape.rowMajor_val_three]
    show (1536 * b.val + a.val) * 3 + d.val = ((i 0).val * 1536 + (i 1).val) * 3 + (i 2).val
    rw [h0, h1, h2]; omega)

/-- The flat mask viewed `[16, 1536, 1]`, at `(b, a, 0)`: row `1536·b + a`. -/
theorem reshapeM_apply (Mk : Cert.Spec.SM.Idx → BitVec 32) (h : S24576x1.ShapeCasts S16x1536x1) (i : S16x1536x1.Idx)
    (b : Fin 16) (a : Fin 1536) (h0 : (i 0).val = b.val) (h1 : (i 1).val = a.val) :
    shapeCast S16x1536x1 Mk h i = Mk (ix2 (Cert.Spec.row b a) (0 : Fin 1)) :=
  shapeCast_apply Mk h i _ (by
    have h2 : (i 2).val < 1 := (i 2).isLt
    rw [Shape.rowMajor_val_two, Shape.rowMajor_val_three]
    show (1536 * b.val + a.val) * 1 + 0 = ((i 0).val * 1536 + (i 1).val) * 1 + (i 2).val
    rw [h0, h1]; omega)

/-! ## A point's five blocks read off the argument arrays

At point `t` the protein is `t / 6` and tile row `r` is atom `256·(t % 6) + r`; a block's element sits in its array at
block index times block size plus its own coordinate. -/

/-- The predicted distances of the tile: row `r`, column `j`. -/
theorem xb0_apply (c : Dev nD) (t : Fin cfg0.N) (u : Fin 1) (r : Fin 256) (j : Fin 1536) :
    xb0 m c t (ix3 u r j) = argX m c (ix3 (Cert.Spec.bOf (pt t)) (Cert.Spec.iOf (pt t) r) j) := by
  obtain ⟨⟨e0, e1, e2⟩, -⟩ := idx_facts t
  show V m c main_arg0 (((cfg0.win 0).blk t).view.emb (ix3 u r j)) = _
  rw [V_main_arg0]
  refine congrArg (argX m c) (funext fun a => Fin.ext ?_)
  match a with
  | ⟨0, _⟩ => show win0_0.index t (0 : Fin 3) * 1 + 1 * u.val = t.val / 6; omega
  | ⟨1, _⟩ => show win0_0.index t (1 : Fin 3) * 256 + 1 * r.val = 256 * (t.val % 6) + r.val; omega
  | ⟨2, _⟩ => show win0_0.index t (2 : Fin 3) * 1536 + 1 * j.val = j.val; omega

/-- The coordinates of the tile's row atoms. -/
theorem xb1_apply (c : Dev nD) (t : Fin cfg0.N) (u : Fin 1) (r : Fin 256) (d : Fin 3) :
    xb1 m c t (ix3 u r d) = argT m c (ix2 (Cert.Spec.row (Cert.Spec.bOf (pt t)) (Cert.Spec.iOf (pt t) r)) d) := by
  obtain ⟨-, ⟨e0, e1, e2⟩, -⟩ := idx_facts t
  show V m c main_v0 (((cfg0.win 1).blk t).view.emb (ix3 u r d)) = _
  rw [V_main_v0]
  refine reshapeT_apply _ _ _ _ _ d ?_ ?_ ?_
  · show win0_1.index t (0 : Fin 3) * 1 + 1 * u.val = t.val / 6; omega
  · show win0_1.index t (1 : Fin 3) * 256 + 1 * r.val = 256 * (t.val % 6) + r.val; omega
  · show win0_1.index t (2 : Fin 3) * 3 + 1 * d.val = d.val; omega

/-- The coordinates of all the protein's atoms, the tile's columns. -/
theorem xb2_apply (c : Dev nD) (t : Fin cfg0.N) (u : Fin 1) (a : Fin 1536) (d : Fin 3) :
    xb2 m c t (ix3 u a d) = argT m c (ix2 (Cert.Spec.row (Cert.Spec.bOf (pt t)) a) d) := by
  obtain ⟨-, -, ⟨e0, e1, e2⟩, -⟩ := idx_facts t
  show V m c main_v0 (((cfg0.win 2).blk t).view.emb (ix3 u a d)) = _
  rw [V_main_v0]
  refine reshapeT_apply _ _ _ _ a d ?_ ?_ ?_
  · show win0_2.index t (0 : Fin 3) * 1 + 1 * u.val = t.val / 6; omega
  · show win0_2.index t (1 : Fin 3) * 1536 + 1 * a.val = a.val; omega
  · show win0_2.index t (2 : Fin 3) * 3 + 1 * d.val = d.val; omega

/-- The masks of the tile's row atoms. -/
theorem xb3_apply (c : Dev nD) (t : Fin cfg0.N) (u : Fin 1) (r : Fin 256) (z : Fin 1) :
    xb3 m c t (ix3 u r z) = argM m c (ix2 (Cert.Spec.row (Cert.Spec.bOf (pt t)) (Cert.Spec.iOf (pt t) r)) (0 : Fin 1)) := by
  obtain ⟨-, -, -, ⟨e0, e1, e2⟩, -⟩ := idx_facts t
  show V m c main_v1 (((cfg0.win 3).blk t).view.emb (ix3 u r z)) = _
  rw [V_main_v1]
  refine reshapeM_apply _ _ _ _ _ ?_ ?_
  · show win0_3.index t (0 : Fin 3) * 1 + 1 * u.val = t.val / 6; omega
  · show win0_3.index t (1 : Fin 3) * 256 + 1 * r.val = 256 * (t.val % 6) + r.val; omega

/-- The masks of all the protein's atoms. -/
theorem xb4_apply (c : Dev nD) (t : Fin cfg0.N) (u : Fin 1) (a : Fin 1536) (z : Fin 1) :
    xb4 m c t (ix3 u a z) = argM m c (ix2 (Cert.Spec.row (Cert.Spec.bOf (pt t)) a) (0 : Fin 1)) := by
  obtain ⟨-, -, -, -, ⟨e0, e1, e2⟩⟩ := idx_facts t
  show V m c main_v1 (((cfg0.win 4).blk t).view.emb (ix3 u a z)) = _
  rw [V_main_v1]
  refine reshapeM_apply _ _ _ _ a ?_ ?_
  · show win0_4.index t (0 : Fin 3) * 1 + 1 * u.val = t.val / 6; omega
  · show win0_4.index t (1 : Fin 3) * 1536 + 1 * a.val = a.val; omega

/-! ## The second cell after a point -/

/-- Over any blocks: the old cell plus the sum over the tile of row mask times column mask. -/
theorem pmStep_apply (x3 : Vec Ideal S1x256x1 .i32) (x4 : Vec Ideal S1x1536x1 .i32) (a : Vec Ideal S1x1 .f32) (u v : Fin 1) :
    pmStep (F := Ideal) x3 x4 a (ix2 u v)
      = a (ix2 u v) + ∑ r : Fin 256, ∑ j : Fin 1536,
          FloatOps.sitofp (F := Ideal) .f32 (x3 (ix3 (0 : Fin 1) r (0 : Fin 1)))
            * FloatOps.sitofp (F := Ideal) .f32 (x4 (ix3 (0 : Fin 1) j (0 : Fin 1))) := by
  unfold pmStep k0_pay1
  refine (congrFun (shapeCast_self _ _) (ix2 u v)).trans ?_
  refine (pay13_apply (k0_pay5 x3) (k0_pay7 x4) a u v).trans ?_
  refine congrArg (a (ix2 u v) + ·) (Finset.sum_congr rfl fun r _ => Finset.sum_congr rfl fun j _ => ?_)
  rw [pay5_apply x3 r 0, pay7_apply x4 0 j]

theorem pmStep_eq (c : Dev nD) (t : Fin cfg0.N) (a : Vec Ideal S1x1 .f32) :
    pmStep (F := Ideal) (xb3 m c t) (xb4 m c t) a
      = fun _ => a (ix2 (0 : Fin 1) (0 : Fin 1)) + Cert.Spec.tilePm (argM m c) (pt t) := by
  funext i
  obtain ⟨u, v, rfl⟩ : ∃ (u v : Fin 1), i = ix2 u v := ⟨i 0, i 1, eq_ix2 i⟩
  obtain rfl : u = 0 := Subsingleton.elim _ _
  obtain rfl : v = 0 := Subsingleton.elim _ _
  refine (pmStep_apply (xb3 m c t) (xb4 m c t) a 0 0).trans ?_
  refine congrArg (a (ix2 (0 : Fin 1) (0 : Fin 1)) + ·) ?_
  unfold Cert.Spec.tilePm Cert.Spec.pm Cert.Spec.mk
  refine Finset.sum_congr rfl fun r _ => Finset.sum_congr rfl fun j _ => ?_
  rw [xb3_apply m c t 0 r 0, xb4_apply m c t 0 j 0]

/-! ## The first cell after a point -/

/-- The specification's loss term of a pair, written from the pair's masks, prediction, squared norms and inner
    product (the squared norm's sum starts from the zero pattern, which is zero). -/
theorem term_eq_cellS (X : Cert.Spec.SX.Idx → EReal) (T : Cert.Spec.ST.Idx → EReal) (Mk : Cert.Spec.SM.Idx → BitVec 32)
    (b : Fin 16) (i j : Fin 1536) :
    Cert.Spec.term X T Mk b i j
      = cellS (Cert.Spec.mk Mk b i) (Cert.Spec.mk Mk b j) (X (ix3 b i j))
          (∑ d : Fin 3, Cert.Spec.t T b i d * Cert.Spec.t T b i d) (∑ d : Fin 3, Cert.Spec.t T b j d * Cert.Spec.t T b j d)
          (∑ d : Fin 3, Cert.Spec.t T b i d * Cert.Spec.t T b j d) := by
  unfold Cert.Spec.term Cert.Spec.pm Cert.Spec.pd Cert.Spec.d2 Cert.Spec.sqn Cert.Spec.gram cellS
  simp only [Ideal.ofBits_zero_f32, zero_add]

/-- Over any blocks: the old cell plus the sum over the tile of the pairs' loss terms, each from the blocks' entries. -/
theorem sqStep_apply (x0 : Vec Ideal S1x256x1536 .f32) (x1 : Vec Ideal S1x256x3 .f32) (x2 : Vec Ideal S1x1536x3 .f32)
    (x3 : Vec Ideal S1x256x1 .i32) (x4 : Vec Ideal S1x1536x1 .i32) (a : Vec Ideal S1x1 .f32) (u v : Fin 1) :
    sqStep (F := Ideal) x0 x1 x2 x3 x4 a (ix2 u v)
      = a (ix2 u v) + ∑ r : Fin 256, ∑ j : Fin 1536,
          cellS (FloatOps.sitofp (F := Ideal) .f32 (x3 (ix3 (0 : Fin 1) r (0 : Fin 1))))
            (FloatOps.sitofp (F := Ideal) .f32 (x4 (ix3 (0 : Fin 1) j (0 : Fin 1)))) (x0 (ix3 (0 : Fin 1) r j))
            (∑ d : Fin 3, x1 (ix3 (0 : Fin 1) r d) * x1 (ix3 (0 : Fin 1) r d))
            (∑ d : Fin 3, x2 (ix3 (0 : Fin 1) j d) * x2 (ix3 (0 : Fin 1) j d))
            (∑ d : Fin 3, x1 (ix3 (0 : Fin 1) r d) * x2 (ix3 (0 : Fin 1) j d)) := by
  unfold sqStep
  refine (pay12_apply (k0_pay5 x3) (k0_pay7 x4) (k0_pay8 x1) (k0_pay9 x2) (k0_pay10 x1 x2) x0 a u v).trans ?_
  refine congrArg (a (ix2 u v) + ·) (Finset.sum_congr rfl fun r _ => Finset.sum_congr rfl fun j _ => ?_)
  rw [pay5_apply x3 r 0, pay7_apply x4 0 j, pay8_apply x1 r 0, pay9_apply x2 0 j, pay10_apply x1 x2 r j]

theorem sqStep_eq (c : Dev nD) (t : Fin cfg0.N) (a : Vec Ideal S1x1 .f32) :
    sqStep (F := Ideal) (xb0 m c t) (xb1 m c t) (xb2 m c t) (xb3 m c t) (xb4 m c t) a
      = fun _ => a (ix2 (0 : Fin 1) (0 : Fin 1)) + Cert.Spec.tileTerm (argX m c) (argT m c) (argM m c) (pt t) := by
  funext i
  obtain ⟨u, v, rfl⟩ : ∃ (u v : Fin 1), i = ix2 u v := ⟨i 0, i 1, eq_ix2 i⟩
  obtain rfl : u = 0 := Subsingleton.elim _ _
  obtain rfl : v = 0 := Subsingleton.elim _ _
  refine (sqStep_apply (xb0 m c t) (xb1 m c t) (xb2 m c t) (xb3 m c t) (xb4 m c t) a 0 0).trans ?_
  refine congrArg (a (ix2 (0 : Fin 1) (0 : Fin 1)) + ·) ?_
  unfold Cert.Spec.tileTerm
  refine Finset.sum_congr rfl fun r _ => Finset.sum_congr rfl fun j _ => ?_
  rw [term_eq_cellS]
  have e3 : FloatOps.sitofp (F := Ideal) .f32 (xb3 m c t (ix3 (0 : Fin 1) r (0 : Fin 1)))
      = Cert.Spec.mk (argM m c) (Cert.Spec.bOf (pt t)) (Cert.Spec.iOf (pt t) r) :=
    congrArg (FloatOps.sitofp (F := Ideal) .f32) (xb3_apply m c t 0 r 0)
  have e4 : FloatOps.sitofp (F := Ideal) .f32 (xb4 m c t (ix3 (0 : Fin 1) j (0 : Fin 1)))
      = Cert.Spec.mk (argM m c) (Cert.Spec.bOf (pt t)) j :=
    congrArg (FloatOps.sitofp (F := Ideal) .f32) (xb4_apply m c t 0 j 0)
  have e0 := xb0_apply m c t 0 r j
  have e1 : ∑ d : Fin 3, xb1 m c t (ix3 (0 : Fin 1) r d) * xb1 m c t (ix3 (0 : Fin 1) r d)
      = ∑ d : Fin 3, Cert.Spec.t (argT m c) (Cert.Spec.bOf (pt t)) (Cert.Spec.iOf (pt t) r) d
          * Cert.Spec.t (argT m c) (Cert.Spec.bOf (pt t)) (Cert.Spec.iOf (pt t) r) d :=
    Finset.sum_congr rfl fun d _ => congrArg₂ (· * ·) (xb1_apply m c t 0 r d) (xb1_apply m c t 0 r d)
  have e2 : ∑ d : Fin 3, xb2 m c t (ix3 (0 : Fin 1) j d) * xb2 m c t (ix3 (0 : Fin 1) j d)
      = ∑ d : Fin 3, Cert.Spec.t (argT m c) (Cert.Spec.bOf (pt t)) j d * Cert.Spec.t (argT m c) (Cert.Spec.bOf (pt t)) j d :=
    Finset.sum_congr rfl fun d _ => congrArg₂ (· * ·) (xb2_apply m c t 0 j d) (xb2_apply m c t 0 j d)
  have e12 : ∑ d : Fin 3, xb1 m c t (ix3 (0 : Fin 1) r d) * xb2 m c t (ix3 (0 : Fin 1) j d)
      = ∑ d : Fin 3, Cert.Spec.t (argT m c) (Cert.Spec.bOf (pt t)) (Cert.Spec.iOf (pt t) r) d
          * Cert.Spec.t (argT m c) (Cert.Spec.bOf (pt t)) j d :=
    Finset.sum_congr rfl fun d _ => congrArg₂ (· * ·) (xb1_apply m c t 0 r d) (xb2_apply m c t 0 j d)
  rw [e3, e4, e0, e1, e2, e12]

end Cert.KernelIdeal.Hand

end
-- ==== Proof.SpecSums.lean ====
/-
  The 96 tiles partition all atom pairs. A grid point `t` names protein `t / 6` and row tile `t % 6`; row `r` of the
  tile is atom `256·(t % 6) + r`. The map `(t, r) ↦ (t / 6, 256·(t % 6) + r)` is a bijection of `Fin 96 × Fin 256` with
  `Fin 16 × Fin 1536` (inverse `(b, i) ↦ (6·b + i / 256, i % 256)`), so a sum over tiles of sums over tile rows is the sum
  over proteins of sums over atoms. Applied to the inner sums over the column atom, the tiles' sums of loss terms add up
  to the sum of all loss terms, and likewise for the pair masks.
-/
import proofs.«165863_j34926674051539_1_alg».proof.Proof.Spec
import Mathlib.Data.Fintype.BigOperators
import Mathlib.Algebra.BigOperators.Group.Finset.Defs

noncomputable section

namespace Cert.Spec

open Idealize.ShloMosaic Idealize.ShloMosaic.ValueIdx

/-- A tile row is an atom of a protein, and every atom of every protein is exactly one tile row. -/
def tileEquiv : Fin 96 × Fin 256 ≃ Fin 16 × Fin 1536 where
  toFun p := (bOf p.1, iOf p.1 p.2)
  invFun q := (⟨6 * q.1.val + q.2.val / 256, by have := q.1.isLt; have := q.2.isLt; omega⟩,
    ⟨q.2.val % 256, by omega⟩)
  left_inv p := by
    obtain ⟨t, r⟩ := p
    have ht := t.isLt
    have hr := r.isLt
    refine Prod.ext (Fin.ext ?_) (Fin.ext ?_)
    · show 6 * (t.val / 6) + (256 * (t.val % 6) + r.val) / 256 = t.val
      omega
    · show (256 * (t.val % 6) + r.val) % 256 = r.val
      omega
  right_inv q := by
    obtain ⟨b, i⟩ := q
    have hb := b.isLt
    have hi := i.isLt
    refine Prod.ext (Fin.ext ?_) (Fin.ext ?_)
    · show (6 * b.val + i.val / 256) / 6 = b.val
      omega
    · show 256 * ((6 * b.val + i.val / 256) % 6) + i.val % 256 = i.val
      omega

/-- Summing over tiles, then tile rows, is summing over proteins, then atoms. -/
theorem sum_tiles {M : Type*} [AddCommMonoid M] (f : Fin 16 → Fin 1536 → M) :
    ∑ t : Fin 96, ∑ r : Fin 256, f (bOf t) (iOf t r) = ∑ b : Fin 16, ∑ i : Fin 1536, f b i := by
  rw [← Fintype.sum_prod_type' (fun (t : Fin 96) (r : Fin 256) => f (bOf t) (iOf t r)),
    ← Fintype.sum_prod_type' (fun (b : Fin 16) (i : Fin 1536) => f b i)]
  exact Fintype.sum_equiv tileEquiv _ _ (fun _ => rfl)

variable (X : SX.Idx → EReal) (T : ST.Idx → EReal) (Mk : SM.Idx → BitVec 32)

/-- The tiles' sums of loss terms add up to the sum of all loss terms. -/
theorem sum_tileTerm : ∑ t : Fin 96, tileTerm X T Mk t = sumTerm X T Mk :=
  sum_tiles (fun b i => ∑ j : Fin 1536, term X T Mk b i j)

/-- The tiles' sums of pair masks add up to the sum of all pair masks. -/
theorem sum_tilePm : ∑ t : Fin 96, tilePm Mk t = sumPm Mk :=
  sum_tiles (fun b i => ∑ j : Fin 1536, pm Mk b i j)

end Cert.Spec

end
-- ==== Proof.KIValue.lean ====
/-
  The kernel's result at the exact extended reals. By induction on the grid point the two scratch cells hold the sums
  of the tiles' loss terms and of the tiles' pair masks over the points so far; the 96 tiles (16 proteins × 6 row tiles
  of 256 atoms) partition all atom pairs of all proteins, so after the last point the cells hold the specification's
  two sums, and the seven scalar lines after the region compute the specification's value from them.
-/
import proofs.«165863_j34926674051539_1_alg».proof.Proof.KIStep
import proofs.«165863_j34926674051539_1_alg».proof.Proof.SpecSums
import Mathlib.Data.Fintype.BigOperators
import Mathlib.Algebra.BigOperators.Intervals

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-! ## The start of the two cells -/

/-- The first cell starts from zero: the zero pattern, broadcast. -/
theorem pay2_apply (i : S1x1.Idx) : (k0_pay2 (F := Ideal)) i = 0 := by
  show shapeCast S1x1 (broadcast S1x1 (Scalar.ofBits (F := Ideal) .f32 0x00000000#32)) shapeCasts_S1x1_S1x1 i = 0
  rw [shapeCast_self]
  exact Ideal.ofBits_zero_f32

/-- The second cell starts from zero. -/
theorem pay3_apply (i : S1x1.Idx) : (k0_pay3 (F := Ideal)) i = 0 := by
  show shapeCast S1x1 (broadcast S1x1 (Scalar.ofBits (F := Ideal) .f32 0x00000000#32)) shapeCasts_S1x1_S1x1 i = 0
  rw [shapeCast_self]
  exact Ideal.ofBits_zero_f32

/-! ## The cells after a point -/

/-- The tiles' sums of loss terms as a sequence over the naturals (zero past the last point). -/
def seqTerm (c : Dev nD) (k : ℕ) : EReal :=
  if h : k < 96 then Cert.Spec.tileTerm (argX m c) (argT m c) (argM m c) ⟨k, h⟩ else 0
/-- The tiles' sums of pair masks as a sequence over the naturals (zero past the last point). -/
def seqPm (c : Dev nD) (k : ℕ) : EReal :=
  if h : k < 96 then Cert.Spec.tilePm (argM m c) ⟨k, h⟩ else 0

theorem seqTerm_pt (c : Dev nD) (t : Fin cfg0.N) :
    seqTerm m c t.val = Cert.Spec.tileTerm (argX m c) (argT m c) (argM m c) (pt t) := dif_pos (pt t).isLt
theorem seqPm_pt (c : Dev nD) (t : Fin cfg0.N) :
    seqPm m c t.val = Cert.Spec.tilePm (argM m c) (pt t) := dif_pos (pt t).isLt

/-- After point `n` the first cell holds the sum of the loss terms of tiles `0 … n`, the second the sum of their pair
    masks. -/
theorem accAt_eq (c : Dev nD) (n : ℕ) : ∀ hn : n < cfg0.N,
    accAt m c n hn = (fun _ => ∑ k ∈ Finset.range (n + 1), seqTerm m c k, fun _ => ∑ k ∈ Finset.range (n + 1), seqPm m c k) := by
  induction n with
  | zero =>
    intro hn
    rw [accAt_zero, sqStep_eq, pmStep_eq, pay2_apply, pay3_apply]
    refine Prod.ext (funext fun _ => ?_) (funext fun _ => ?_)
    · show 0 + _ = ∑ k ∈ Finset.range (0 + 1), seqTerm m c k
      rw [Finset.sum_range_succ, Finset.sum_range_zero, ← seqTerm_pt m c ⟨0, hn⟩]
    · show 0 + _ = ∑ k ∈ Finset.range (0 + 1), seqPm m c k
      rw [Finset.sum_range_succ, Finset.sum_range_zero, ← seqPm_pt m c ⟨0, hn⟩]
  | succ n ih =>
    intro hn
    rw [accAt_succ, sqStep_eq, pmStep_eq, ih (Nat.lt_of_succ_lt hn)]
    refine Prod.ext (funext fun _ => ?_) (funext fun _ => ?_)
    · show (∑ k ∈ Finset.range (n + 1), seqTerm m c k) + _ = ∑ k ∈ Finset.range (n + 1 + 1), seqTerm m c k
      rw [Finset.sum_range_succ _ (n + 1), ← seqTerm_pt m c ⟨n + 1, hn⟩]
    · show (∑ k ∈ Finset.range (n + 1), seqPm m c k) + _ = ∑ k ∈ Finset.range (n + 1 + 1), seqPm m c k
      rw [Finset.sum_range_succ _ (n + 1), ← seqPm_pt m c ⟨n + 1, hn⟩]

/-- Over all 96 points the sequence sums to the sum over the tiles. -/
theorem sum_seqTerm (c : Dev nD) :
    ∑ k ∈ Finset.range 96, seqTerm m c k = ∑ t : Fin 96, Cert.Spec.tileTerm (argX m c) (argT m c) (argM m c) t :=
  (Fin.sum_univ_eq_sum_range (seqTerm m c) 96).symm.trans (Finset.sum_congr rfl fun t _ => dif_pos t.isLt)
theorem sum_seqPm (c : Dev nD) :
    ∑ k ∈ Finset.range 96, seqPm m c k = ∑ t : Fin 96, Cert.Spec.tilePm (argM m c) t :=
  (Fin.sum_univ_eq_sum_range (seqPm m c) 96).symm.trans (Finset.sum_congr rfl fun t _ => dif_pos t.isLt)

/-! ## The lines after the region -/

/-- The seven scalar lines divide each cell's one entry by the count and multiply the quotients. -/
theorem resultOf_eq (a b : Vec Ideal S1x1 .f32) :
    resultOf (F := Ideal) a b
      = fun _ => Ideal.div (a (ix2 (0 : Fin 1) (0 : Fin 1))) Cert.Spec.cnt * Ideal.div (b (ix2 (0 : Fin 1) (0 : Fin 1))) Cert.Spec.cnt := by
  funext j
  have hk : (S1x1.rowMajor (ix2 (0 : Fin 1) (0 : Fin 1))).val = (S_.rowMajor j).val := by
    have h1 := (S1x1.rowMajor (ix2 (0 : Fin 1) (0 : Fin 1))).isLt
    have h2 := (S_.rowMajor j).isLt
    have e1 : S1x1.numel = 1 := by decide
    have e2 : S_.numel = 1 := by decide
    omega
  show Ideal.div (shapeCast S_ a shapeCasts_S1x1_S_ j) (Ideal.ofBits .f32 0x4C100000#32)
      * Ideal.div (shapeCast S_ b shapeCasts_S1x1_S_ j) (Ideal.ofBits .f32 0x4C100000#32) = _
  rw [shapeCast_apply a shapeCasts_S1x1_S_ j _ hk, shapeCast_apply b shapeCasts_S1x1_S_ j _ hk]
  rfl

/-- The value @main's result buffer ends with is the specification's. -/
theorem value_eq (c : Dev nD) :
    resultOf (F := Ideal) (accAt m c tLast.val tLast.isLt).1 (accAt m c tLast.val tLast.isLt).2
      = fun _ => Cert.Spec.result (argX m c) (argT m c) (argM m c) := by
  rw [resultOf_eq, accAt_eq m c tLast.val tLast.isLt]
  funext _
  show Ideal.div (∑ k ∈ Finset.range 96, seqTerm m c k) Cert.Spec.cnt
      * Ideal.div (∑ k ∈ Finset.range 96, seqPm m c k) Cert.Spec.cnt = _
  rw [sum_seqTerm, sum_seqPm, Cert.Spec.sum_tileTerm, Cert.Spec.sum_tilePm]
  rfl

end Cert.KernelIdeal.Hand

end
-- ==== Proof.RefValue.lean ====
/-
  The reference program's result as the specification's value.

  Index by index: the reshaped coordinates and mask read row `1536·b + a`; the squared norms, inner products and
  squared distances are the specification's; the clamp at zero before the two selects changes neither branch (where
  the squared distance is positive the clamp is the identity, elsewhere the result is zero); so the squared-difference
  array is the loss term and the product of the broadcast masks the pair mask. The two sums over every index are the
  triple sums over the coordinates, and `(S / N · P) / N = (S / N) · (P / N)` for the nonzero real `N`.
-/
import proofs.«165863_j34926674051539_1_alg».proof.Defs
import proofs.«165863_j34926674051539_1_alg».proof.Proof.Gen.ReferenceIdeal.Run
import proofs.«165863_j34926674051539_1_alg».proof.Proof.Gen.ReferenceIdeal.Read
import proofs.«165863_j34926674051539_1_alg».proof.Proof.Spec

noncomputable section

namespace Cert.RefValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read Cert.Spec

variable (X : SX.Idx → EReal) (T : ST.Idx → EReal) (Mk : SM.Idx → BitVec 32)

/-- The reshaped coordinates at `(b, a, d)` are row `1536·b + a`, column `d`. -/
theorem v0_read (b : Fin 16) (a : Fin 1536) (d : Fin 3) :
    val_main_v0 (F := Ideal) T (ix3 b a d) = t T b a d := by
  rw [val_main_v0_apply]
  unfold t
  refine congrArg T (funext fun e => ?_)
  match e with
  | ⟨0, _⟩ =>
    refine Fin.ext ?_
    show ((b.val * 1536 + a.val) * 3 + d.val) / 3 = 1536 * b.val + a.val
    have := d.isLt; omega
  | ⟨1, _⟩ =>
    refine Fin.ext ?_
    show ((b.val * 1536 + a.val) * 3 + d.val) % 3 = d.val
    have := d.isLt; omega

/-- The reshaped, converted mask at `(b, a)` is the mask of row `1536·b + a` as a number. -/
theorem v2_read (b : Fin 16) (a : Fin 1536) :
    val_main_v2 (F := Ideal) Mk (ix2 b a) = mk Mk b a := by
  rw [val_main_v2_apply, val_main_v1_apply]
  unfold mk
  refine congrArg (fun w => FloatOps.sitofp (F := Ideal) .f32 (Mk w)) (funext fun e => ?_)
  match e with
  | ⟨0, _⟩ =>
    refine Fin.ext ?_
    show (b.val * 1536 + a.val) / 1 = 1536 * b.val + a.val
    omega
  | ⟨1, _⟩ => rfl

/-- The pair-mask array at `(b, i, j)`. -/
theorem v7_read (b : Fin 16) (i j : Fin 1536) :
    val_main_v7 (F := Ideal) Mk (ix3 b i j) = pm Mk b i j := by
  rw [val_main_v7_apply, val_main_v5_apply, val_main_v3_apply, val_main_v6_apply, val_main_v4_apply]
  have e1 : idx_main_v3 (idx_main_v5 (ix3 b i j)) = ix2 b i := funext fun e => by
    match e with | ⟨0, _⟩ => rfl | ⟨1, _⟩ => rfl
  have e2 : idx_main_v4 (idx_main_v6 (ix3 b i j)) = ix2 b j := funext fun e => by
    match e with | ⟨0, _⟩ => rfl | ⟨1, _⟩ => rfl
  rw [e1, e2, v2_read, v2_read]
  rfl

/-- The squared-norm array at `(b, a)`. -/
theorem v9_read (b : Fin 16) (a : Fin 1536) :
    val_main_v9 (F := Ideal) T (ix2 b a) = sqn T b a := by
  rw [val_main_v9_apply, val_main_cst_apply, Ideal.ofBits_def]
  unfold sqn
  refine congrArg (_ + ·) (Finset.sum_congr rfl fun k _ => ?_)
  have e : idx_main_v9 (ix2 b a) k = ix3 b a k := funext fun e => by
    match e with | ⟨0, _⟩ => rfl | ⟨1, _⟩ => rfl | ⟨2, _⟩ => rfl
  rw [e, val_main_v8_apply, Ideal.mulf_def, v0_read]

/-- The inner-product array at `(b, i, j)`. -/
theorem v10_read (b : Fin 16) (i j : Fin 1536) :
    val_main_v10 (F := Ideal) T (ix3 b i j) = gram T b i j := by
  rw [val_main_v10_apply]
  unfold gram
  refine Finset.sum_congr rfl fun k _ => ?_
  have el : lidx_main_v10 (ix3 b i j) k = ix3 b i k := funext fun e => by
    match e with | ⟨0, _⟩ => rfl | ⟨1, _⟩ => rfl | ⟨2, _⟩ => rfl
  have er : ridx_main_v10 (ix3 b i j) k = ix3 b j k := funext fun e => by
    match e with | ⟨0, _⟩ => rfl | ⟨1, _⟩ => rfl | ⟨2, _⟩ => rfl
  rw [el, er, v0_read, v0_read]

/-- The squared-distance array at `(b, i, j)`, before the clamp. -/
theorem v18_read (b : Fin 16) (i j : Fin 1536) :
    val_main_v18 (F := Ideal) T (ix3 b i j) = d2 T b i j := by
  rw [val_main_v18_apply, val_main_v15_apply, val_main_v17_apply, val_main_v13_apply, val_main_v11_apply,
    val_main_v14_apply, val_main_v12_apply, val_main_v16_apply, val_main_cst_0_apply, Ideal.ofBits_def]
  have e1 : idx_main_v11 (idx_main_v13 (ix3 b i j)) = ix2 b i := funext fun e => by
    match e with | ⟨0, _⟩ => rfl | ⟨1, _⟩ => rfl
  have e2 : idx_main_v12 (idx_main_v14 (ix3 b i j)) = ix2 b j := funext fun e => by
    match e with | ⟨0, _⟩ => rfl | ⟨1, _⟩ => rfl
  rw [e1, e2, v9_read, v9_read, v10_read]
  rfl

/-- The comparison of a clamped value with zero sees only the sign of the unclamped one. -/
theorem cmp_ogt_max (D : EReal) : Ideal.cmp .ogt (max D 0) 0 = if 0 < D then 1#1 else 0#1 := by
  unfold Ideal.cmp
  by_cases h : 0 < D
  · rw [if_pos h]; simp [h]
  · rw [if_neg h]; simp [h]

/-- The clamped squared distance at `(b, i, j)`. -/
theorem v20_read (b : Fin 16) (i j : Fin 1536) :
    val_main_v20 (F := Ideal) T (ix3 b i j) = max (d2 T b i j) 0 := by
  rw [val_main_v20_apply, val_main_v19_apply, val_main_cst_1_apply, Ideal.ofBits_def, Ideal.ofBits_zero_f32, v18_read]
  rfl

/-- The distance array at `(b, i, j)`: where the squared distance is positive the clamp is the identity and both
    selects take their first branch; elsewhere the outer select takes the zero. -/
theorem v27_read (b : Fin 16) (i j : Fin 1536) :
    val_main_v27 (F := Ideal) T (ix3 b i j) = pd T b i j := by
  rw [val_main_v27_apply, val_main_v25_apply, val_main_v26_apply, val_main_v23_apply, val_main_v22_apply,
    val_main_call1_v1_apply, val_main_call1_v0_apply, val_main_cst_5_apply,
    val_main_v24_apply, val_main_cst_4_apply, val_main_v21_apply, val_main_cst_2_apply, v20_read,
    Ideal.ofBits_def, Ideal.ofBits_zero_f32, Ideal.cmpf_def, cmp_ogt_max, Ideal.hostUnary_sqrt_def]
  unfold pd
  by_cases h : 0 < d2 T b i j
  · rw [if_pos h, if_pos h, select_one, select_one, max_eq_left h.le]
  · rw [if_neg h, if_neg h, select_zero]

/-- The squared-difference array at `(b, i, j)` is the loss term. -/
theorem v31_read (b : Fin 16) (i j : Fin 1536) :
    val_main_v31 (F := Ideal) X T Mk (ix3 b i j) = term X T Mk b i j := by
  rw [val_main_v31_apply, val_main_v30_apply, val_main_v28_apply, val_main_v29_apply, v7_read, v27_read]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of the squared-difference array over every index is the sum of the loss terms. -/
theorem v32_read (i : S_.Idx) : val_main_v32 (F := Ideal) X T Mk i = sumTerm X T Mk := by
  rw [val_main_v32_apply, val_main_cst_6_apply, Ideal.ofBits_def, Ideal.ofBits_zero_f32, zero_add, sum_idx3]
  unfold sumTerm
  exact Finset.sum_congr rfl fun b _ => Finset.sum_congr rfl fun i _ => Finset.sum_congr rfl fun j _ =>
    v31_read X T Mk b i j

/-- The sum of the pair-mask array over every index is the sum of the pair masks. -/
theorem v34_read (i : S_.Idx) : val_main_v34 (F := Ideal) Mk i = sumPm Mk := by
  rw [val_main_v34_apply, val_main_cst_8_apply, Ideal.ofBits_def, Ideal.ofBits_zero_f32, zero_add, sum_idx3]
  unfold sumPm
  exact Finset.sum_congr rfl fun b _ => Finset.sum_congr rfl fun i _ => Finset.sum_congr rfl fun j _ =>
    v7_read Mk b i j

/-- The count's float pattern denotes `37748736 = 16 · 1536 · 1536`. -/
theorem cnt_eq : cnt = ((37748736 : ℝ) : EReal) := by
  unfold cnt
  simp [Ideal.ofBits, Ideal.ieee, -EReal.coe_mul]; norm_num

/-- Dividing a product by the count is multiplying one factor by the count's reciprocal. -/
theorem div_mul_div (S P : EReal) : Ideal.div (Ideal.div S cnt * P) cnt = Ideal.div S cnt * Ideal.div P cnt := by
  have h : (37748736 : ℝ) ≠ 0 := by norm_num
  rw [cnt_eq, Ideal.div_coe h, Ideal.div_coe h, Ideal.div_coe h, mul_assoc (S * _) P]

/-- The reference's value is the specification's. -/
theorem v36_read (i : S_.Idx) : val_main_v36 (F := Ideal) X T Mk i = result X T Mk := by
  rw [val_main_v36_apply, val_main_v35_apply, val_main_v33_apply, val_main_cst_9_apply, val_main_cst_7_apply,
    v32_read, v34_read, Ideal.ofBits_def, Ideal.hostDivf_def, Ideal.hostDivf_def, Ideal.mulf_def]
  exact div_mul_div _ _

/-- The reference's result buffer holds the specification's value of the three argument arrays. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m c
      = fun _ => Cert.Spec.result (m ((c.tc : Thread _ _).loc Cert.ReferenceIdeal.main_arg0)) (m ((c.tc : Thread _ _).loc Cert.ReferenceIdeal.main_arg1)) (m ((c.tc : Thread _ _).loc Cert.ReferenceIdeal.main_arg2)) :=
  (val_main_v36_eq m c).trans (funext fun i => v36_read _ _ _ i)

end Cert.RefValue

end
-- ==== Proof.lean ====
/-
  What is proved. The kernel as printed (on words), the kernel read at the exact extended reals, and the reference read
  at the exact extended reals each run to the end without fault and leave their four argument arrays as they found
  them; and at the extended reals, from memories that agree on the arguments, the kernel and the reference end with the
  same value.

  Both sides compute, from predicted distance maps `X` (16 × 1536 × 1536), coordinates (24576 rows of 3) and a 0/1 mask
  (24576 rows of 1), the mean loss term times the mean pair mask, `(Σ term / N) · (Σ pm / N)` with `N = 16·1536·1536`
  (Proof/Spec.lean: `term = (pm·X − pm·pd)²`, `pd` the pairwise distance, `pm` the product of the two atoms' masks).

  The kernel walks 96 grid points, protein-major: point `t` takes protein `t / 6` and the 256 atoms `256·(t % 6) …` as rows
  against all 1536 atoms of that protein as columns, and adds the tile's sum of loss terms and its sum of pair masks to
  two running cells that the first point starts from zero. The 96 tiles partition the atom pairs of all proteins, and
  addition of extended reals is commutative and associative, so after the last point the two cells hold the two total
  sums; the scalar lines after the region divide each by `N` and multiply the quotients. The reference forms the whole
  arrays, sums each over every index, and computes `(S / N · P) / N`, which is `(S / N) · (P / N)` because `N` is a nonzero
  real. So each result is the specification's value of the same three arrays, and the two are equal.
-/
import proofs.«165863_j34926674051539_1_alg».proof.Defs
import proofs.«165863_j34926674051539_1_alg».proof.Proof.Gen.Kernel
import proofs.«165863_j34926674051539_1_alg».proof.Proof.Gen.Kernel.Skeleton
import proofs.«165863_j34926674051539_1_alg».proof.Proof.Gen.Kernel.Launch
import proofs.«165863_j34926674051539_1_alg».proof.Proof.Gen.Kernel.Points
import proofs.«165863_j34926674051539_1_alg».proof.Proof.Gen.KernelIdeal
import proofs.«165863_j34926674051539_1_alg».proof.Proof.Gen.KernelIdeal.Skeleton
import proofs.«165863_j34926674051539_1_alg».proof.Proof.Gen.KernelIdeal.Launch
import proofs.«165863_j34926674051539_1_alg».proof.Proof.Gen.KernelIdeal.Points
import proofs.«165863_j34926674051539_1_alg».proof.Proof.Gen.ReferenceIdeal
import proofs.«165863_j34926674051539_1_alg».proof.Proof.Gen.Pre_finite_inputs
import proofs.«165863_j34926674051539_1_alg».proof.Proof.KLaunch
import proofs.«165863_j34926674051539_1_alg».proof.Proof.KBody
import proofs.«165863_j34926674051539_1_alg».proof.Proof.KILaunch
import proofs.«165863_j34926674051539_1_alg».proof.Proof.KIBody
import proofs.«165863_j34926674051539_1_alg».proof.Proof.KIValue
import proofs.«165863_j34926674051539_1_alg».proof.Proof.RefValue
import Idealize.ShloMosaic.Adequacy
import Idealize.ShloMosaic.Init

noncomputable section

namespace Cert.Proof

open Idealize.ShloMosaic Idealize.SL.Sem

/-- The kernel on words runs and leaves its arguments: its run with the result dropped. -/
theorem frame_Kernel : Cert.frame_Kernel := fun m ρ _ =>
  (θ_run Cert.Kernel.defs _ _).mono (fun _ h c => (h c).2)
    (Cert.Kernel.Hand.run_main (F := Bits) m ρ (Cert.Kernel.Hand.body_obligation m))

/-- The kernel at the extended reals runs and leaves its arguments: its run with the result dropped. -/
theorem frame_KernelIdeal : Cert.frame_KernelIdeal := fun m ρ _ =>
  (θ_run Cert.KernelIdeal.defs _ _).mono (fun _ h c => (h c).2)
    (Cert.KernelIdeal.Hand.run_main (F := Ideal) m ρ (Cert.KernelIdeal.Hand.body_obligation m))

/-- The reference at the extended reals runs and leaves its arguments: its run with the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The kernel at the extended reals is the kernel's own text read there: no operation was rewritten. -/
theorem preserves : Cert.preserves_Kernel_KernelIdeal := trivial

/-- At the extended reals the kernel's result is what the scalar lines make of the two running cells after the last
    point, which is the specification's value of its three arrays; the reference's result is the specification's value of
    its three arrays; and the arrays agree. -/
theorem algebraic : Cert.algebraic_KernelIdeal_ReferenceIdeal := by
  intro m ρ m' ρ' _ hagree
  refine ⟨_, Cert.KernelIdeal.Hand.run_main (F := Ideal) m ρ (Cert.KernelIdeal.Hand.body_obligation m), ?_⟩
  refine (θ_run Cert.ReferenceIdeal.defs _ _).mono (fun _ h c => ⟨(h c).1.trans ?_, (h c).2⟩)
    (Cert.ReferenceIdeal.Value.run (F := Ideal) m' ρ')
  refine (Cert.RefValue.res_eq m' c).trans ?_
  rw [(hagree c).1, (hagree c).2.1, (hagree c).2.2.1]
  exact (Cert.KernelIdeal.Hand.value_eq m c).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
